-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S640000x128 : Shape := ⟨2, ![640000, 128]⟩
abbrev S640000 : Shape := ⟨1, ![640000]⟩
abbrev S384x256 : Shape := ⟨2, ![384, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg9 : FVec F S256 .f32) (main_arg10 : FVec F S256x128 .f32) (main_arg11 : FVec F S128 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S256x128 .f32) (main_arg7 : FVec F S128 .f32) (main_arg8 : FVec F S256x256 .f32) (main_arg9 : FVec F S256 .f32) (main_arg10 : FVec F S256x128 .f32) (main_arg11 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : FVec F S640000x128 .f32) (main_arg2 : IVec S640000 32) (main_arg3 : IVec S640000 32) (main_arg4 : FVec F S384x256 .f32) (main_arg5 : FVec F S256 .f32) (main_arg6 : FVec F S256x128 .f32) (main_arg7 : FVec F S128 .f32) (main_arg8 : FVec F S256x256 .f32) (main_arg9 : FVec F S256 .f32) (main_arg10 : FVec F S256x128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S384x256 .f32 := Host.absf main_arg4
  let main_cst_2 : FVec F S_ .f32 := constant S_ .f32 0x7F800000#32
  let main_v10 : FVec F S384x256 .f32 := broadcastInDim S384x256 ![] bcast_S_S384x256 main_cst_2
  let main_v11 : IVec S384x256 1 := cmpf .olt main_v9 main_v10
  let main_c_3 : IVec S_ 1 := constantI S_ 1 1#1
  let main_v12 : IVec S_ 1 := (fun x v => Host.reduce IntOp.andi x v reducesTo_S384x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S640000x128 : Shape := ⟨2, ![640000, 128]⟩
abbrev S640000 : Shape := ⟨1, ![640000]⟩
abbrev S384x256 : Shape := ⟨2, ![384, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S_ : Shape := ⟨0, ![]⟩
abbrev S640000x1 : Shape := ⟨2, ![640000, 1]⟩
abbrev S1x256 : Shape := ⟨2, ![1, 256]⟩
abbrev S1x128 : Shape := ⟨2, ![1, 128]⟩
abbrev S4000x128 : Shape := ⟨2, ![4000, 128]⟩
abbrev S4000x384 : Shape := ⟨2, ![4000, 384]⟩
abbrev S4000x256 : Shape := ⟨2, ![4000, 256]⟩
abbrev S2000x128 : Shape := ⟨2, ![2000, 128]⟩
abbrev S2000x256 : Shape := ⟨2, ![2000, 256]⟩

abbrev nBuf : Space → Nat
  | .hbm => 41
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S640000x128, .f32⟩
  | .hbm, ⟨2, _⟩ => ⟨S640000, .i32⟩
  | .hbm, ⟨3, _⟩ => ⟨S640000, .i32⟩
  | .hbm, ⟨4, _⟩ => ⟨S384x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S256x256, .f32⟩
  | .hbm, ⟨9, _⟩ => ⟨S256, .f32⟩
  | .hbm, ⟨10, _⟩ => ⟨S256x128, .f32⟩
  | .hbm, ⟨11, _⟩ => ⟨S128, .f32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .i32⟩
  | .hbm, ⟨22, _⟩ => ⟨S640000, .i32⟩
  | .hbm, ⟨23, _⟩ => ⟨S640000, .i1⟩
  | .hbm, ⟨24, _⟩ => ⟨S_, .i32⟩
  | .hbm, ⟨25, _⟩ => ⟨S640000, .i32⟩
  | .hbm, ⟨26, _⟩ => ⟨S640000, .i32⟩
  | .hbm, ⟨27, _⟩ => ⟨S640000, .i32⟩
  | .hbm, ⟨28, _⟩ => ⟨S640000x1, .i32⟩
  | .hbm, ⟨29, _⟩ => ⟨S640000x128, .f32⟩
  | .hbm, ⟨30, _⟩ => ⟨S1x256, .f32⟩
  | .hbm, ⟨31, _⟩ => ⟨S1x128, .f32⟩
  | .hbm, ⟨32, _⟩ => ⟨S1x256, .f32⟩
  | .hbm, ⟨33, _⟩ => ⟨S1x128, .f32⟩
  | .hbm, ⟨34, _⟩ => ⟨S640000x128, .f32⟩
  | .hbm, ⟨35, _⟩ => ⟨S640000x128, .f32⟩
  | .hbm, ⟨36, _⟩ => ⟨S_, .f32⟩
  | .hbm, ⟨37, _⟩ => ⟨S50000x128, .f32⟩
  | .hbm, ⟨38, _⟩ => ⟨S640000x1, .i32⟩
  | .hbm, ⟨39, _⟩ => ⟨S50000x128, .f32⟩
  | .hbm, ⟨40, _⟩ => ⟨S50000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S384x256, .f32⟩
  | .local _ .vmem, ⟨7, _⟩ => ⟨S1x256, .f32⟩
  | .local _ .vmem, ⟨8, _⟩ => ⟨S256x128, .f32⟩
  | .local _ .vmem, ⟨9, _⟩ => ⟨S1x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S256x256, .f32⟩
  | .local _ .vmem, ⟨19, _⟩ => ⟨S1x256, .f32⟩
  | .local _ .vmem, ⟨20, _⟩ => ⟨S256x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18_0 : Ref sig .tc := ⟨.hbm, 34, rfl⟩
abbrev main_v18_1 : Ref sig .tc := ⟨.hbm, 35, rfl⟩
abbrev main_cst : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  shapeCasts_S256_S1x256 : S256.ShapeCasts S1x256
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  concatenates_S4000x128_S4000x128_S4000x128_S4000x384_d1 : Shape.Concatenates [S4000x128, S4000x128, S4000x128] S4000x384 1
  bitsLt_bf16_f32 : FTy.bits .bf16 < FTy.bits .f32
  inb_S384x256_S384x256_0_0 : ∀ a, (![0, 0] : Fin 2 → Nat) a + S384x256.size a ≤ S384x256.size a
  h_S384x256 : 0 < S384x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  concatenates_S2000x128_S2000x128_S2000x256_d1 : Shape.Concatenates [S2000x128, S2000x128] S2000x256 1
  inb_S256x256_S256x256_0_0 : ∀ a, (![0, 0] : Fin 2 → Nat) a + S256x256.size a ≤ S256x256.size a
  h_S256x256 : 0 < S256x256.numel
  broadcasts_S1x256_S2000x256 : S1x256.Broadcasts S2000x256
  broadcasts_S1x128_S2000x128 : S1x128.Broadcasts S2000x128
  gather_S50000x128_S640000x1_S640000x128_1_0_n_n_0_1_1128_wf : GatherDims.WF S50000x128 S640000x1 S640000x128 [1] [0] [] [0] [] 1 ![1, 128]
  dot_S4000x384_S384x256_S4000x256_1_0_0_1_n_n_wf : DotDims.WF S4000x384 S384x256 S4000x256 [1] [0] [0] [1] [] []
  dot_S4000x256_S256x128_S4000x128_1_0_0_1_n_n_wf : DotDims.WF S4000x256 S256x128 S4000x128 [1] [0] [0] [1] [] []
  scatter_S50000x128_S640000x1_S640000x128_1_0_0_1_wf : ScatterDims.WF S50000x128 S640000x1 S640000x128 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S640000x128.size a
  hwx0_0 : ∀ i : grid0.Coords, EltTy.bits .f32 = 32 ∨ (Rect.block (s := S640000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S640000x128.size a
  hwx0_1 : ∀ i : grid0.Coords, EltTy.bits .f32 = 32 ∨ (Rect.block (s := S640000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S640000x128.size a
  hwx0_2 : ∀ i : grid0.Coords, EltTy.bits .f32 = 32 ∨ (Rect.block (s := S640000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x256.size a ≤ S384x256.size a
  hwx0_3 : ∀ i : grid0.Coords, EltTy.bits .f32 = 32 ∨ (Rect.block (s := S384x256) S384x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S640000x128.size a
  hwx0_7 : ∀ i : grid0.Coords, EltTy.bits .f32 = 32 ∨ (Rect.block (s := S640000x128) S4000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x128.size a ≤ S640000x128.size a
  hwx0_8 : ∀ i : grid0.Coords, EltTy.bits .f32 = 32 ∨ (Rect.block (s := S640000x128) S4000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S4000x384_S384x256_S4000x256_1_0_0_1_n_n : DotDims S4000x384 S384x256 S4000x256 where
  lhsContracting := [1]
  rhsContracting := [0]
  lhsNonContracting := [0]
  rhsNonContracting := [1]
  lhsBatch := []
  rhsBatch := []
  wf := dot_S4000x384_S384x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v6) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S384x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18_0) S4000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v18_1) S4000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v22) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S640000x128 : Shape := ⟨2, ![640000, 128]⟩
abbrev S640000 : Shape := ⟨1, ![640000]⟩
abbrev S384x256 : Shape := ⟨2, ![384, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S_ : Shape := ⟨0, ![]⟩
abbrev S640000x1 : Shape := ⟨2, ![640000, 1]⟩
abbrev S640000x384 : Shape := ⟨2, ![640000, 384]⟩
abbrev S640000x256 : Shape := ⟨2, ![640000, 256]⟩
abbrev S1x256 : Shape := ⟨2, ![1, 256]⟩
abbrev S1x128 : Shape := ⟨2, ![1, 128]⟩
abbrev S50000x256 : Shape := ⟨2, ![50000, 256]⟩

abbrev nBuf : Space → Nat
  | .hbm => 88
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S640000x128, .f32⟩
  | .hbm, ⟨2, _⟩ => ⟨S640000, .i32⟩
  | .hbm, ⟨3, _⟩ => ⟨S640000, .i32⟩
  | .hbm, ⟨4, _⟩ => ⟨S384x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S256x256, .f32⟩
  | .hbm, ⟨9, _⟩ => ⟨S256, .f32⟩
  | .hbm, ⟨10, _⟩ => ⟨S256x128, .f32⟩
  | .hbm, ⟨11, _⟩ => ⟨S128, .f32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .i32⟩
  | .hbm, ⟨22, _⟩ => ⟨S640000, .i32⟩
  | .hbm, ⟨23, _⟩ => ⟨S640000, .i1⟩
  | .hbm, ⟨24, _⟩ => ⟨S_, .i32⟩
  | .hbm, ⟨25, _⟩ => ⟨S640000, .i32⟩
  | .hbm, ⟨26, _⟩ => ⟨S640000, .i32⟩
  | .hbm, ⟨27, _⟩ => ⟨S640000, .i32⟩
  | .hbm, ⟨28, _⟩ => ⟨S640000x1, .i32⟩
  | .hbm, ⟨29, _⟩ => ⟨S640000x128, .f32⟩
  | .hbm, ⟨30, _⟩ => ⟨S640000x384, .f32⟩
  | .hbm, ⟨31, _⟩ => ⟨S640000x256, .f32⟩
  | .hbm, ⟨32, _⟩ => ⟨S1x256, .f32⟩
  | .hbm, ⟨33, _⟩ => ⟨S640000x256, .f32⟩
  | .hbm, ⟨34, _⟩ => ⟨S640000x256, .f32⟩
  | .hbm, ⟨35, _⟩ => ⟨S640000x256, .f32⟩
  | .hbm, ⟨36, _⟩ => ⟨S640000x256, .f32⟩
  | .hbm, ⟨37, _⟩ => ⟨S_, .f32⟩
  | .hbm, ⟨38, _⟩ => ⟨S640000x256, .f32⟩
  | .hbm, ⟨39, _⟩ => ⟨S640000x256, .f32⟩
  | .hbm, ⟨40, _⟩ => ⟨S640000x256, .f32⟩
  | .hbm, ⟨41, _⟩ => ⟨S_, .f32⟩
  | .hbm, ⟨42, _⟩ => ⟨S640000x256, .f32⟩
  | .hbm, ⟨43, _⟩ => ⟨S640000x256, .f32⟩
  | .hbm, ⟨44, _⟩ => ⟨S640000x256, .f32⟩
  | .hbm, ⟨45, _⟩ => ⟨S_, .f32⟩
  | .hbm, ⟨46, _⟩ => ⟨S640000x256, .f32⟩
  | .hbm, ⟨47, _⟩ => ⟨S640000x256, .f32⟩
  | .hbm, ⟨48, _⟩ => ⟨S_, .f32⟩
  | .hbm, ⟨49, _⟩ => ⟨S640000x256, .f32⟩
  | .hbm, ⟨50, _⟩ => ⟨S640000x256, .f32⟩
  | .hbm, ⟨51, _⟩ => ⟨S640000x256, .f32⟩
  | .hbm, ⟨52, _⟩ => ⟨S640000x128, .f32⟩
  | .hbm, ⟨53, _⟩ => ⟨S1x128, .f32⟩
  | .hbm, ⟨54, _⟩ => ⟨S640000x128, .f32⟩
  | .hbm, ⟨55, _⟩ => ⟨S640000x128, .f32⟩
  | .hbm, ⟨56, _⟩ => ⟨S_, .f32⟩
  | .hbm, ⟨57, _⟩ => ⟨S50000x128, .f32⟩
  | .hbm, ⟨58, _⟩ => ⟨S640000x1, .i32⟩
  | .hbm, ⟨59, _⟩ => ⟨S50000x128, .f32⟩
  | .hbm, ⟨60, _⟩ => ⟨S50000x256, .f32⟩
  | .hbm, ⟨61, _⟩ => ⟨S50000x256, .f32⟩
  | .hbm, ⟨62, _⟩ => ⟨S1x256, .f32⟩
  | .hbm, ⟨63, _⟩ => ⟨S50000x256, .f32⟩
  | .hbm, ⟨64, _⟩ => ⟨S50000x256, .f32⟩
  | .hbm, ⟨65, _⟩ => ⟨S50000x256, .f32⟩
  | .hbm, ⟨66, _⟩ => ⟨S50000x256, .f32⟩
  | .hbm, ⟨67, _⟩ => ⟨S_, .f32⟩
  | .hbm, ⟨68, _⟩ => ⟨S50000x256, .f32⟩
  | .hbm, ⟨69, _⟩ => ⟨S50000x256, .f32⟩
  | .hbm, ⟨70, _⟩ => ⟨S50000x256, .f32⟩
  | .hbm, ⟨71, _⟩ => ⟨S_, .f32⟩
  | .hbm, ⟨72, _⟩ => ⟨S50000x256, .f32⟩
  | .hbm, ⟨73, _⟩ => ⟨S50000x256, .f32⟩
  | .hbm, ⟨74, _⟩ => ⟨S50000x256, .f32⟩
  | .hbm, ⟨75, _⟩ => ⟨S_, .f32⟩
  | .hbm, ⟨76, _⟩ => ⟨S50000x256, .f32⟩
  | .hbm, ⟨77, _⟩ => ⟨S50000x256, .f32⟩
  | .hbm, ⟨78, _⟩ => ⟨S_, .f32⟩
  | .hbm, ⟨79, _⟩ => ⟨S50000x256, .f32⟩
  | .hbm, ⟨80, _⟩ => ⟨S50000x256, .f32⟩
  | .hbm, ⟨81, _⟩ => ⟨S50000x256, .f32⟩
  | .hbm, ⟨82, _⟩ => ⟨S50000x128, .f32⟩
  | .hbm, ⟨83, _⟩ => ⟨S1x128, .f32⟩
  | .hbm, ⟨84, _⟩ => ⟨S50000x128, .f32⟩
  | .hbm, ⟨85, _⟩ => ⟨S50000x128, .f32⟩
  | .hbm, ⟨86, _⟩ => ⟨S50000x128, .f32⟩
  | .hbm, ⟨87, _⟩ => ⟨S640000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_7 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_v53 : Ref sig .tc := ⟨.hbm, 77, rfl⟩
abbrev main_cst_10 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x128_S640000x384_d1 : Shape.Concatenates [S640000x128, S640000x128, S640000x128] S640000x384 1
  bcast_S256_S1x256_1 : S256.BroadcastsInDim S1x256 (![1] : Fin 1 → Fin S1x256.rank)
  bcast_S1x256_S640000x256_0_1 : S1x256.BroadcastsInDim S640000x256 (![0, 1] : Fin 2 → Fin S640000x256.rank)
  bcast_S_S640000x256 : S_.BroadcastsInDim S640000x256 (![] : Fin 0 → Fin S640000x256.rank)
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S1x128_S50000x128_0_1 : S1x128.BroadcastsInDim S50000x128 (![0, 1] : Fin 2 → Fin S50000x128.rank)
  gather_S50000x128_S640000x1_S640000x128_1_0_n_n_0_1_1128_wf : GatherDims.WF S50000x128 S640000x1 S640000x128 [1] [0] [] [0] [] 1 ![1, 128]
  dot_S640000x384_S384x256_S640000x256_1_0_0_1_n_n_wf : DotDims.WF S640000x384 S384x256 S640000x256 [1] [0] [0] [1] [] []
  dot_S640000x256_S256x128_S640000x128_1_0_0_1_n_n_wf : DotDims.WF S640000x256 S256x128 S640000x128 [1] [0] [0] [1] [] []
  scatter_S50000x128_S640000x1_S640000x128_1_0_0_1_wf : ScatterDims.WF S50000x128 S640000x1 S640000x128 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S640000x384_S384x256_S640000x256_1_0_0_1_n_n : DotDims S640000x384 S384x256 S640000x256 where
  lhsContracting := [1]
  rhsContracting := [0]
  lhsNonContracting := [0]
  rhsNonContracting := [1]
  lhsBatch := []
  rhsBatch := []
  wf := dot_S640000x384_S384x256_S640000x256_1_0_0_1_n_n_wf
def dot_S640000x256_S256x128_S640000x128_1_0_0_1_n_n : DotDims S640000x256 S256x128 S640000x128 where
  lhsContracting := [1]
  rhsContracting := [0]
  lhsNonContracting := [0]
  rhsNonContracting := [1]
  lhsBatch := []
  rhsBatch := []
  wf := dot_S640000x256_S256x128_S640000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Spec.lean ====
/-
  The message-passing layer, row by row, on the extended reals.

  One row of either two-layer perceptron: from an input row `x` of length `K`, the hidden row is
  `h k = (∑ q, x q · W1 q k) + b1 k`, it passes through the tanh form of GELU,
  `gelu h = h · (½ · (1 + tanh (c₂ · (h + c₁ · h³))))`, and the output row is
  `(∑ k, gelu (h k) · W2 k j) + b2 j`. The edge perceptron's input row is the sender's, the receiver's and
  the edge's features side by side (`cat3`, 3 × 128 entries); the node perceptron's is the node's features
  beside the messages summed into it (`cat2`, 2 × 128 entries).

  The four constants of GELU are kept as the extended reals their binary words denote: both programs print the same
  words, so no value of theirs is ever needed. The only law between the two programs' spellings of GELU is
  commutativity of the product in the cube: `h · (h · h)` against `(h · h) · h` (`gelu_cube_comm`); it holds at
  the infinities too, so no finiteness of the inputs is used.
-/
import Idealize.ShloMosaic.PureOps.Ideal
import Idealize.ShloMosaic.Lib.ValueIdx

noncomputable section

namespace Cert.MsgPass

open Idealize.ShloMosaic Idealize.ShloMosaic.ValueIdx
open scoped BigOperators

/-- The cube's coefficient in the tanh form of GELU (the word of 0.044715). -/
abbrev cCube : EReal := Ideal.ofBits .f32 0x3D372713#32
/-- The scale inside the tanh (the word of 0.797884583, the float nearest √(2/π)). -/
abbrev cScale : EReal := Ideal.ofBits .f32 0x3F4C422A#32
/-- The word of 1. -/
abbrev cOne : EReal := Ideal.ofBits .f32 0x3F800000#32
/-- The word of ½. -/
abbrev cHalf : EReal := Ideal.ofBits .f32 0x3F000000#32

/-- The tanh form of GELU on one extended real, the cube grouped as `h · (h · h)`. -/
def gelu (h : EReal) : EReal :=
  h * (cHalf * (cOne + Ideal.tanh (cScale * (h + cCube * (h * (h * h))))))

/-- The same with the cube grouped as `(h · h) · h`: the product of extended reals commutes. -/
theorem gelu_cube_comm (h : EReal) :
    h * (cHalf * (cOne + Ideal.tanh (cScale * (h + cCube * ((h * h) * h))))) = gelu h := by
  unfold gelu; rw [mul_comm (h * h) h]

/-- One output row of a two-layer perceptron with GELU between the layers. -/
def mlpRow {K H D : Nat} (x : Fin K → EReal) (W1 : Fin K → Fin H → EReal) (b1 : Fin H → EReal)
    (W2 : Fin H → Fin D → EReal) (b2 : Fin D → EReal) (j : Fin D) : EReal :=
  (∑ k : Fin H, gelu ((∑ q : Fin K, x q * W1 q k) + b1 k) * W2 k j) + b2 j

/-- Three rows of 128 entries side by side. -/
def cat3 (s r e : Fin 128 → EReal) (q : Fin 384) : EReal :=
  if h : q.val < 128 then s ⟨q.val, h⟩
  else if h2 : q.val < 256 then r ⟨q.val - 128, by omega⟩
  else e ⟨q.val - 256, by omega⟩

/-- Two rows of 128 entries side by side. -/
def cat2 (n a : Fin 128 → EReal) (q : Fin 256) : EReal :=
  if h : q.val < 128 then n ⟨q.val, h⟩ else a ⟨q.val - 128, by omega⟩

/-- Row `p` of a matrix given on rank-2 indices. -/
abbrev row {n d : Nat} (X : (⟨2, ![n, d]⟩ : Shape).Idx → EReal) (p : Fin n) : Fin d → EReal := fun c => X (ix2 p c)
/-- A matrix given on rank-2 indices, by its two coordinates. -/
abbrev mat {a b : Nat} (W : (⟨2, ![a, b]⟩ : Shape).Idx → EReal) : Fin a → Fin b → EReal := fun q k => W (ix2 q k)
/-- A vector given on rank-1 indices, by its coordinate. -/
abbrev vec {a : Nat} (v : (⟨1, ![a]⟩ : Shape).Idx → EReal) : Fin a → EReal := fun k => v (ix1 k)

end Cert.MsgPass

end
-- ==== Proof.EdgeBody.lean ====
/-
  The edge perceptron's block, entry by entry.

  One grid point of the first kernel loads a block of 4000 rows of the senders' features, of the receivers' and of
  the edges', the two weight matrices whole and the two biases as one-row matrices; the value it stores as the new
  edges is, at row `p` and column `j` of the block, the perceptron's output row of the three rows `p` laid side
  by side. The changes of float format are the identity on the extended reals, the matrix products into a zero
  accumulator are plain sums over the contracted axis, and the concatenation reads the piece its column falls in.
-/
import proofs.«149776_j16320875725329_1_alg».proof.Proof.Gen.KernelIdeal.Skeleton
import proofs.«149776_j16320875725329_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.MsgPass.EdgeBody

open Cert.KernelIdeal Cert.KernelIdeal.Gen Cert.MsgPass
open Idealize.ShloMosaic Idealize.ShloMosaic.ValueIdx
open scoped BigOperators

/-! ### The first product's operand indices, axis by axis -/

theorem lhs_d1_0 (i : S4000x256.Idx) (q : dot_S4000x384_S384x256_S4000x256_1_0_0_1_n_n.contr.Idx) :
    (dot_S4000x384_S384x256_S4000x256_1_0_0_1_n_n.lhsIdx i q 0).val = (i 0).val := by
  unfold DotDims.lhsIdx
  rw [dif_neg (show ¬(0 : Fin S4000x384.rank) ∈ dot_S4000x384_S384x256_S4000x256_1_0_0_1_n_n.lhsBatch by decide), dif_pos (show (0 : Fin S4000x384.rank) ∈ dot_S4000x384_S384x256_S4000x256_1_0_0_1_n_n.lhsNonContracting by decide)]
  rfl
theorem lhs_d1_1 (i : S4000x256.Idx) (q : dot_S4000x384_S384x256_S4000x256_1_0_0_1_n_n.contr.Idx) :
    (dot_S4000x384_S384x256_S4000x256_1_0_0_1_n_n.lhsIdx i q 1).val = (q ⟨0, by decide⟩).val :=
  dot_S4000x384_S384x256_S4000x256_1_0_0_1_n_n.lhsIdx_val_of_single rfl i q
theorem rhs_d1_0 (i : S4000x256.Idx) (q : dot_S4000x384_S384x256_S4000x256_1_0_0_1_n_n.contr.Idx) :
    (dot_S4000x384_S384x256_S4000x256_1_0_0_1_n_n.rhsIdx i q 0).val = (q ⟨0, by decide⟩).val :=
  dot_S4000x384_S384x256_S4000x256_1_0_0_1_n_n.rhsIdx_val_of_single rfl i q
theorem rhs_d1_1 (i : S4000x256.Idx) (q : dot_S4000x384_S384x256_S4000x256_1_0_0_1_n_n.contr.Idx) :
    (dot_S4000x384_S384x256_S4000x256_1_0_0_1_n_n.rhsIdx i q 1).val = (i 1).val := by
  unfold DotDims.rhsIdx
  rw [dif_neg (show ¬(1 : Fin S384x256.rank) ∈ dot_S4000x384_S384x256_S4000x256_1_0_0_1_n_n.rhsBatch by decide), dif_pos (show (1 : Fin S384x256.rank) ∈ dot_S4000x384_S384x256_S4000x256_1_0_0_1_n_n.rhsNonContracting by decide)]
  rfl

/-- The first product into a zero accumulator, read at row `p`, column `k`: the sum over the 384 contracted columns. -/
theorem matmul1_apply (A : FVec Ideal S4000x384 .bf16) (B : FVec Ideal S384x256 .bf16) (p : Fin 4000) (k : Fin 256) :
    matmul (F := Ideal) dot_S4000x384_S384x256_S4000x256_1_0_0_1_n_n none A B (constant (F := Ideal) S4000x256 .f32 0x00000000#32) (ix2 p k)
      = ∑ q : Fin 384, A (ix2 p q) * B (ix2 q k) := by
  simp only [matmul]
  rw [Ideal.matmul_constant_zero_apply, ← Equiv.sum_comp (ValueIdx.contrEquiv1 dot_S4000x384_S384x256_S4000x256_1_0_0_1_n_n 384 rfl rfl).symm]
  refine Finset.sum_congr rfl fun q _ => ?_
  have hq := ValueIdx.contrEquiv1_symm_val dot_S4000x384_S384x256_S4000x256_1_0_0_1_n_n 384 rfl rfl q
  have el : dot_S4000x384_S384x256_S4000x256_1_0_0_1_n_n.lhsIdx (ix2 p k) ((ValueIdx.contrEquiv1 dot_S4000x384_S384x256_S4000x256_1_0_0_1_n_n 384 rfl rfl).symm q) = ix2 p q := funext fun a => Fin.ext (by
    match a with
    | ⟨0, _⟩ => exact lhs_d1_0 _ _
    | ⟨1, _⟩ => exact (lhs_d1_1 _ _).trans hq)
  have er : dot_S4000x384_S384x256_S4000x256_1_0_0_1_n_n.rhsIdx (ix2 p k) ((ValueIdx.contrEquiv1 dot_S4000x384_S384x256_S4000x256_1_0_0_1_n_n 384 rfl rfl).symm q) = ix2 q k := funext fun a => Fin.ext (by
    match a with
    | ⟨0, _⟩ => exact (rhs_d1_0 _ _).trans hq
    | ⟨1, _⟩ => exact rhs_d1_1 _ _)
  rw [el, er]

/-! ### The second product's operand indices, axis by axis -/

theorem lhs_d2_0 (i : S4000x128.Idx) (q : dot_S4000x256_S256x128_S4000x128_1_0_0_1_n_n.contr.Idx) :
    (dot_S4000x256_S256x128_S4000x128_1_0_0_1_n_n.lhsIdx i q 0).val = (i 0).val := by
  unfold DotDims.lhsIdx
  rw [dif_neg (show ¬(0 : Fin S4000x256.rank) ∈ dot_S4000x256_S256x128_S4000x128_1_0_0_1_n_n.lhsBatch by decide), dif_pos (show (0 : Fin S4000x256.rank) ∈ dot_S4000x256_S256x128_S4000x128_1_0_0_1_n_n.lhsNonContracting by decide)]
  rfl
theorem lhs_d2_1 (i : S4000x128.Idx) (q : dot_S4000x256_S256x128_S4000x128_1_0_0_1_n_n.contr.Idx) :
    (dot_S4000x256_S256x128_S4000x128_1_0_0_1_n_n.lhsIdx i q 1).val = (q ⟨0, by decide⟩).val :=
  dot_S4000x256_S256x128_S4000x128_1_0_0_1_n_n.lhsIdx_val_of_single rfl i q
theorem rhs_d2_0 (i : S4000x128.Idx) (q : dot_S4000x256_S256x128_S4000x128_1_0_0_1_n_n.contr.Idx) :
    (dot_S4000x256_S256x128_S4000x128_1_0_0_1_n_n.rhsIdx i q 0).val = (q ⟨0, by decide⟩).val :=
  dot_S4000x256_S256x128_S4000x128_1_0_0_1_n_n.rhsIdx_val_of_single rfl i q
theorem rhs_d2_1 (i : S4000x128.Idx) (q : dot_S4000x256_S256x128_S4000x128_1_0_0_1_n_n.contr.Idx) :
    (dot_S4000x256_S256x128_S4000x128_1_0_0_1_n_n.rhsIdx i q 1).val = (i 1).val := by
  unfold DotDims.rhsIdx
  rw [dif_neg (show ¬(1 : Fin S256x128.rank) ∈ dot_S4000x256_S256x128_S4000x128_1_0_0_1_n_n.rhsBatch by decide), dif_pos (show (1 : Fin S256x128.rank) ∈ dot_S4000x256_S256x128_S4000x128_1_0_0_1_n_n.rhsNonContracting by decide)]
  rfl

/-- The second product into a zero accumulator, read at row `p`, column `j`: the sum over the 256 contracted columns. -/
theorem matmul2_apply (A : FVec Ideal S4000x256 .bf16) (B : FVec Ideal S256x128 .bf16) (p : Fin 4000) (j : Fin 128) :
    matmul (F := Ideal) dot_S4000x256_S256x128_S4000x128_1_0_0_1_n_n none A B (constant (F := Ideal) S4000x128 .f32 0x00000000#32) (ix2 p j)
      = ∑ k : Fin 256, A (ix2 p k) * B (ix2 k j) := by
  simp only [matmul]
  rw [Ideal.matmul_constant_zero_apply, ← Equiv.sum_comp (ValueIdx.contrEquiv1 dot_S4000x256_S256x128_S4000x128_1_0_0_1_n_n 256 rfl rfl).symm]
  refine Finset.sum_congr rfl fun k _ => ?_
  have hk := ValueIdx.contrEquiv1_symm_val dot_S4000x256_S256x128_S4000x128_1_0_0_1_n_n 256 rfl rfl k
  have el : dot_S4000x256_S256x128_S4000x128_1_0_0_1_n_n.lhsIdx (ix2 p j) ((ValueIdx.contrEquiv1 dot_S4000x256_S256x128_S4000x128_1_0_0_1_n_n 256 rfl rfl).symm k) = ix2 p k := funext fun a => Fin.ext (by
    match a with
    | ⟨0, _⟩ => exact lhs_d2_0 _ _
    | ⟨1, _⟩ => exact (lhs_d2_1 _ _).trans hk)
  have er : dot_S4000x256_S256x128_S4000x128_1_0_0_1_n_n.rhsIdx (ix2 p j) ((ValueIdx.contrEquiv1 dot_S4000x256_S256x128_S4000x128_1_0_0_1_n_n 256 rfl rfl).symm k) = ix2 k j := funext fun a => Fin.ext (by
    match a with
    | ⟨0, _⟩ => exact (rhs_d2_0 _ _).trans hk
    | ⟨1, _⟩ => exact rhs_d2_1 _ _)
  rw [el, er]

/-! ### The three blocks side by side -/

/-- The concatenation along the columns read at row `p`, column `q`: the piece whose span of 128 columns holds `q`. -/
theorem cat_apply (v0 v2 v4 : FVec Ideal S4000x128 .f32) (p : Fin 4000) (q : Fin 384) :
    concatenate S4000x384 1 [⟨S4000x128, v0⟩, ⟨S4000x128, v2⟩, ⟨S4000x128, v4⟩]
        concatenates_S4000x128_S4000x128_S4000x128_S4000x384_d1 (ix2 p q)
      = cat3 (row v0 p) (row v2 p) (row v4 p) q := by
  unfold cat3
  by_cases h : q.val < 128
  · rw [dif_pos h]
    exact concatenate_apply_piece 1 _ _ (ix2 p q) 0 (by show (0 : Nat) < 3; omega) S4000x128 v0 rfl rfl 0 rfl (ix2 p ⟨q.val, h⟩)
      (fun b hb => match b, hb with
        | ⟨0, _⟩, _ => rfl
        | ⟨1, _⟩, hb => absurd rfl hb)
      (Nat.zero_add _)
  · rw [dif_neg h]
    by_cases h2 : q.val < 256
    · rw [dif_pos h2]
      exact concatenate_apply_piece 1 _ _ (ix2 p q) 1 (by show (1 : Nat) < 3; omega) S4000x128 v2 rfl rfl 128 rfl (ix2 p ⟨q.val - 128, by omega⟩)
        (fun b hb => match b, hb with
          | ⟨0, _⟩, _ => rfl
          | ⟨1, _⟩, hb => absurd rfl hb)
        (by show 128 + (q.val - 128) = q.val; omega)
    · rw [dif_neg h2]
      exact concatenate_apply_piece 1 _ _ (ix2 p q) 2 (by show (2 : Nat) < 3; omega) S4000x128 v4 rfl rfl 256 rfl (ix2 p ⟨q.val - 256, by have := q.isLt; omega⟩)
        (fun b hb => match b, hb with
          | ⟨0, _⟩, _ => rfl
          | ⟨1, _⟩, hb => absurd rfl hb)
        (by show 256 + (q.val - 256) = q.val; omega)

/-! ### The hidden layer and the activation, entry by entry -/

/-- The hidden layer's pre-activation block: the three blocks side by side times the first weights, plus the first bias
    on every row. -/
def hid (v0 v2 v4 : Vec Ideal S4000x128 .f32) (v7 : Vec Ideal S384x256 .f32) (v10 : Vec Ideal S1x256 .f32) :
    FVec Ideal S4000x256 .f32 :=
  addf
    (matmul dot_S4000x384_S384x256_S4000x256_1_0_0_1_n_n none
      (truncf .bf16
        (concatenate S4000x384 1
          [⟨S4000x128, shapeCast S4000x128 v0 shapeCasts_S4000x128_S4000x128⟩,
           ⟨S4000x128, shapeCast S4000x128 v2 shapeCasts_S4000x128_S4000x128⟩, ⟨S4000x128, v4⟩]
          concatenates_S4000x128_S4000x128_S4000x128_S4000x384_d1) bitsLt_bf16_f32)
      (truncf .bf16 v7 bitsLt_bf16_f32) (constant S4000x256 .f32 0x00000000#32))
    (broadcastTo S4000x256 (shapeCast S1x256 v10 shapeCasts_S1x256_S1x256) broadcasts_S1x256_S4000x256)

/-- The pre-activation at row `p`, hidden unit `k`: the row of the three rows `p` side by side against column `k` of
    the first weights, plus the bias at `k`. The shape casts keep their shape, so they are the identity. -/
theorem hid_apply (v0 v2 v4 : Vec Ideal S4000x128 .f32) (v7 : Vec Ideal S384x256 .f32) (v10 : Vec Ideal S1x256 .f32)
    (p : Fin 4000) (k : Fin 256) :
    hid v0 v2 v4 v7 v10 (ix2 p k)
      = (∑ q : Fin 384, cat3 (row v0 p) (row v2 p) (row v4 p) q * v7 (ix2 q k)) + v10 (ix2 (0 : Fin 1) k) := by
  unfold hid
  rw [shapeCast_self v0, shapeCast_self v2, shapeCast_self v10]
  refine (congrArg₂ (· + ·) (matmul1_apply _ _ p k) (broadcastTo_1b_ab_apply v10 broadcasts_S1x256_S4000x256 p k)).trans ?_
  refine congrArg (· + v10 (ix2 (0 : Fin 1) k)) (Finset.sum_congr rfl fun q _ => ?_)
  exact congrArg (· * v7 (ix2 q k)) (cat_apply v0 v2 v4 p q)

/-- The new-edge payload of one grid point at row `p`, column `j` of its block. -/
theorem pay_new (v0 v2 v4 : Vec Ideal S4000x128 .f32) (v7 : Vec Ideal S384x256 .f32) (v10 : Vec Ideal S1x256 .f32)
    (v28 : Vec Ideal S256x128 .f32) (v31 : Vec Ideal S1x128 .f32) (p : Fin 4000) (j : Fin 128) :
    k0_pay2 (F := Ideal) v0 v2 v4 v7 v10 v28 v31 (ix2 p j)
      = mlpRow (cat3 (row v0 p) (row v2 p) (row v4 p)) (mat v7) (fun k : Fin 256 => v10 (ix2 (0 : Fin 1) k))
          (mat v28) (fun k : Fin 128 => v31 (ix2 (0 : Fin 1) k)) j := by
  have e : k0_pay2 (F := Ideal) v0 v2 v4 v7 v10 v28 v31
      = addf
          (matmul dot_S4000x256_S256x128_S4000x128_1_0_0_1_n_n none
            (truncf .bf16
              (mulf (hid v0 v2 v4 v7 v10)
                (mulf (broadcast S4000x256 cHalf)
                  (addf (broadcast S4000x256 cOne)
                    (tanh
                      (mulf (broadcast S4000x256 cScale)
                        (addf (hid v0 v2 v4 v7 v10)
                          (mulf (broadcast S4000x256 cCube)
                            (mulf (hid v0 v2 v4 v7 v10)
                              (mulf (hid v0 v2 v4 v7 v10) (hid v0 v2 v4 v7 v10))))))))))
              bitsLt_bf16_f32)
            (truncf .bf16 v28 bitsLt_bf16_f32) (constant S4000x128 .f32 0x00000000#32))
          (broadcastTo S4000x128 (shapeCast S1x128 v31 shapeCasts_S1x128_S1x128) broadcasts_S1x128_S4000x128) := rfl
  rw [e, shapeCast_self v31]
  refine (congrArg₂ (· + ·) (matmul2_apply _ _ p j) (broadcastTo_1b_ab_apply v31 broadcasts_S1x128_S4000x128 p j)).trans ?_
  unfold mlpRow
  refine congrArg (· + v31 (ix2 (0 : Fin 1) j)) (Finset.sum_congr rfl fun k _ => ?_)
  refine congrArg (· * v28 (ix2 k j)) ?_
  show gelu (hid v0 v2 v4 v7 v10 (ix2 p k)) = _
  rw [hid_apply]

end Cert.MsgPass.EdgeBody

end
-- ==== Proof.NodeBody.lean ====
/-
  The node perceptron's block, entry by entry.

  One grid point of the second kernel loads a block of 2000 rows of the nodes' features and of the messages summed
  into them, the two weight matrices whole and the two biases as one-row matrices; the value it stores is, at row `p`
  and column `j` of the block, the node's own feature plus the perceptron's output row of the two rows `p` laid
  side by side.
-/
import proofs.«149776_j16320875725329_1_alg».proof.Proof.Gen.KernelIdeal.Skeleton
import proofs.«149776_j16320875725329_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.MsgPass.NodeBody

open Cert.KernelIdeal Cert.KernelIdeal.Gen Cert.MsgPass
open Idealize.ShloMosaic Idealize.ShloMosaic.ValueIdx
open scoped BigOperators

/-! ## The first product read at an entry -/

theorem lhsA_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhsA_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhsA_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhsA_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The first product into the zero splat, at row `p` and column `k`: the sum over the 256 contracted columns. -/
theorem matmulA_apply (x : FVec Ideal S2000x256 .bf16) (w : FVec Ideal S256x256 .bf16) (p : Fin 2000) (k : Fin 256) :
    matmul (F := Ideal) dot_S2000x256_S256x256_S2000x256_1_0_0_1_n_n none x w (constant S2000x256 .f32 0x00000000#32) (ix2 p k)
      = ∑ q : Fin 256, x (ix2 p q) * w (ix2 q k) := by
  refine (Ideal.matmul_constant_zero_apply dot_S2000x256_S256x256_S2000x256_1_0_0_1_n_n none x w (ix2 p k)).trans ?_
  rw [← Equiv.sum_comp (contrEquiv1 dot_S2000x256_S256x256_S2000x256_1_0_0_1_n_n 256 rfl rfl).symm]
  refine Finset.sum_congr rfl fun q _ => ?_
  have hq := contrEquiv1_symm_val dot_S2000x256_S256x256_S2000x256_1_0_0_1_n_n 256 rfl rfl q
  have el : dot_S2000x256_S256x256_S2000x256_1_0_0_1_n_n.lhsIdx (ix2 p k) ((contrEquiv1 dot_S2000x256_S256x256_S2000x256_1_0_0_1_n_n 256 rfl rfl).symm q) = ix2 p q := funext fun a => Fin.ext (by
    match a with
    | ⟨0, _⟩ => exact lhsA_0 _ _
    | ⟨1, _⟩ => exact (lhsA_1 _ _).trans hq)
  have er : dot_S2000x256_S256x256_S2000x256_1_0_0_1_n_n.rhsIdx (ix2 p k) ((contrEquiv1 dot_S2000x256_S256x256_S2000x256_1_0_0_1_n_n 256 rfl rfl).symm q) = ix2 q k := funext fun a => Fin.ext (by
    match a with
    | ⟨0, _⟩ => exact (rhsA_0 _ _).trans hq
    | ⟨1, _⟩ => exact rhsA_1 _ _)
  rw [el, er]

/-! ## The second product read at an entry -/

theorem lhsB_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhsB_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhsB_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhsB_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The second product into the zero splat, at row `p` and column `j`: the sum over the 256 hidden columns. -/
theorem matmulB_apply (x : FVec Ideal S2000x256 .bf16) (w : FVec Ideal S256x128 .bf16) (p : Fin 2000) (j : Fin 128) :
    matmul (F := Ideal) dot_S2000x256_S256x128_S2000x128_1_0_0_1_n_n none x w (constant S2000x128 .f32 0x00000000#32) (ix2 p j)
      = ∑ k : Fin 256, x (ix2 p k) * w (ix2 k j) := by
  refine (Ideal.matmul_constant_zero_apply dot_S2000x256_S256x128_S2000x128_1_0_0_1_n_n none x w (ix2 p j)).trans ?_
  rw [← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p j) ((contrEquiv1 dot_S2000x256_S256x128_S2000x128_1_0_0_1_n_n 256 rfl rfl).symm k) = ix2 p k := funext fun a => Fin.ext (by
    match a with
    | ⟨0, _⟩ => exact lhsB_0 _ _
    | ⟨1, _⟩ => exact (lhsB_1 _ _).trans hk)
  have er : dot_S2000x256_S256x128_S2000x128_1_0_0_1_n_n.rhsIdx (ix2 p j) ((contrEquiv1 dot_S2000x256_S256x128_S2000x128_1_0_0_1_n_n 256 rfl rfl).symm k) = ix2 k j := funext fun a => Fin.ext (by
    match a with
    | ⟨0, _⟩ => exact (rhsB_0 _ _).trans hk
    | ⟨1, _⟩ => exact rhsB_1 _ _)
  rw [el, er]

/-! ## The two rows side by side -/

/-- The concatenation along the columns, at row `p` and column `q`: the first piece's entry below column 128, the
    second piece's at `q - 128` from there on. -/
theorem concat_apply (a b : FVec Ideal S2000x128 .f32) (p : Fin 2000) (q : Fin 256) :
    concatenate S2000x256 1 [⟨S2000x128, a⟩, ⟨S2000x128, b⟩] concatenates_S2000x128_S2000x128_S2000x256_d1 (ix2 p q)
      = cat2 (row a p) (row b p) q := by
  unfold cat2
  by_cases h : q.val < 128
  · rw [dif_pos h]
    exact concatenate_pair_apply_left (1 : Fin S2000x256.rank) a b concatenates_S2000x128_S2000x128_S2000x256_d1 (ix2 p q) rfl
      (ix2 p (⟨q.val, h⟩ : Fin 128)) (fun c => match c with
        | ⟨0, _⟩ => rfl
        | ⟨1, _⟩ => rfl)
  · rw [dif_neg h]
    exact concatenate_pair_apply_right (1 : Fin S2000x256.rank) a b concatenates_S2000x128_S2000x128_S2000x256_d1 (ix2 p q) rfl rfl
      (ix2 p (⟨q.val - 128, by have := q.isLt; omega⟩ : Fin 128)) (fun c hc => match c, hc with
        | ⟨0, _⟩, _ => rfl
        | ⟨1, _⟩, hc => absurd rfl hc)
      (by show (q.val - 128) + 128 = q.val; omega)

/-! ## The hidden layer -/

/-- The hidden layer's block before GELU, as the kernel spells it: the two loaded blocks side by side, the first
    product into the zero splat, the bias row broadcast over the rows. -/
def hidden (v0 v1 : Vec Ideal S2000x128 .f32) (v5 : Vec Ideal S256x256 .f32) (v8 : Vec Ideal S1x256 .f32) :
    FVec Ideal S2000x256 .f32 :=
  addf
    (matmul dot_S2000x256_S256x256_S2000x256_1_0_0_1_n_n none
      (truncf .bf16 (concatenate S2000x256 1 [⟨S2000x128, v0⟩, ⟨S2000x128, shapeCast S2000x128 v1 shapeCasts_S2000x128_S2000x128⟩]
        concatenates_S2000x128_S2000x128_S2000x256_d1) bitsLt_bf16_f32)
      (truncf .bf16 v5 bitsLt_bf16_f32) (constant S2000x256 .f32 0x00000000#32))
    (broadcastTo S2000x256 (shapeCast S1x256 v8 shapeCasts_S1x256_S1x256) broadcasts_S1x256_S2000x256)

/-- The hidden layer at row `p`, column `k`: the input row against column `k` of the first weights, plus the bias. -/
theorem hidden_apply (v0 v1 : Vec Ideal S2000x128 .f32) (v5 : Vec Ideal S256x256 .f32) (v8 : Vec Ideal S1x256 .f32)
    (p : Fin 2000) (k : Fin 256) :
    hidden v0 v1 v5 v8 (ix2 p k)
      = (∑ q : Fin 256, cat2 (row v0 p) (row v1 p) q * v5 (ix2 q k)) + v8 (ix2 (0 : Fin 1) k) := by
  unfold hidden
  rw [shapeCast_self, shapeCast_self]
  show matmul (F := Ideal) dot_S2000x256_S256x256_S2000x256_1_0_0_1_n_n none _ _ (constant S2000x256 .f32 0x00000000#32) (ix2 p k)
      + broadcastTo S2000x256 v8 broadcasts_S1x256_S2000x256 (ix2 p k) = _
  rw [matmulA_apply, broadcastTo_1b_ab_apply v8 broadcasts_S1x256_S2000x256 p k]
  refine congrArg (· + v8 (ix2 (0 : Fin 1) k)) (Finset.sum_congr rfl fun q _ => ?_)
  show concatenate S2000x256 1 [⟨S2000x128, v0⟩, ⟨S2000x128, v1⟩] concatenates_S2000x128_S2000x128_S2000x256_d1 (ix2 p q) * v5 (ix2 q k) = _
  rw [concat_apply]

/-! ## GELU -/

/-- The kernel's spelling of the tanh form of GELU on a block, the four constants as splats of their words. -/
def act (h : FVec Ideal S2000x256 .f32) : FVec Ideal S2000x256 .f32 :=
  mulf h (mulf (broadcast S2000x256 (Scalar.ofBits .f32 0x3F000000#32))
    (addf (broadcast S2000x256 (Scalar.ofBits .f32 0x3F800000#32))
      (tanh (mulf (broadcast S2000x256 (Scalar.ofBits .f32 0x3F4C422A#32))
        (addf h (mulf (broadcast S2000x256 (Scalar.ofBits .f32 0x3D372713#32)) (mulf h (mulf h h))))))))

/-- Entry by entry it is `gelu`: every operation of the block is pointwise, and the cube is already grouped as
    `h · (h · h)`. -/
theorem act_apply (h : FVec Ideal S2000x256 .f32) (i : S2000x256.Idx) : act h i = gelu (h i) := rfl

/-! ## The payload -/

/-- The payload is the node's block plus the second product of the activated hidden layer plus the second bias row. -/
theorem pay_eq (v0 v1 : Vec Ideal S2000x128 .f32) (v5 : Vec Ideal S256x256 .f32) (v8 : Vec Ideal S1x256 .f32)
    (v26 : Vec Ideal S256x128 .f32) (v29 : Vec Ideal S1x128 .f32) :
    k1_pay1 (F := Ideal) v0 v1 v5 v8 v26 v29
      = addf v0 (addf
          (matmul dot_S2000x256_S256x128_S2000x128_1_0_0_1_n_n none (truncf .bf16 (act (hidden v0 v1 v5 v8)) bitsLt_bf16_f32)
            (truncf .bf16 v26 bitsLt_bf16_f32) (constant S2000x128 .f32 0x00000000#32))
          (broadcastTo S2000x128 (shapeCast S1x128 v29 shapeCasts_S1x128_S1x128) broadcasts_S1x128_S2000x128)) := rfl

/-- The node payload of one grid point at row `p`, column `j` of its block. -/
theorem pay_node (v0 v1 : Vec Ideal S2000x128 .f32) (v5 : Vec Ideal S256x256 .f32) (v8 : Vec Ideal S1x256 .f32)
    (v26 : Vec Ideal S256x128 .f32) (v29 : Vec Ideal S1x128 .f32) (p : Fin 2000) (j : Fin 128) :
    k1_pay1 (F := Ideal) v0 v1 v5 v8 v26 v29 (ix2 p j)
      = v0 (ix2 p j) + mlpRow (cat2 (row v0 p) (row v1 p)) (mat v5) (fun k : Fin 256 => v8 (ix2 (0 : Fin 1) k))
          (mat v26) (fun k : Fin 128 => v29 (ix2 (0 : Fin 1) k)) j := by
  rw [pay_eq, shapeCast_self]
  show v0 (ix2 p j) + (matmul (F := Ideal) dot_S2000x256_S256x128_S2000x128_1_0_0_1_n_n none _ _ (constant S2000x128 .f32 0x00000000#32) (ix2 p j)
      + broadcastTo S2000x128 v29 broadcasts_S1x128_S2000x128 (ix2 p j)) = _
  rw [matmulB_apply, broadcastTo_1b_ab_apply v29 broadcasts_S1x128_S2000x128 p j]
  unfold mlpRow
  refine congrArg (fun t => v0 (ix2 p j) + (t + v29 (ix2 (0 : Fin 1) j))) (Finset.sum_congr rfl fun k _ => ?_)
  show act (hidden v0 v1 v5 v8) (ix2 p k) * v26 (ix2 k j) = _
  rw [act_apply, hidden_apply]

end Cert.MsgPass.NodeBody

end
-- ==== Proof.EdgeArr.lean ====
/-
  The first kernel's two output arrays after its 160 grid points.

  Point `t` of the grid reads rows `4000·t … 4000·t + 3999` of the senders' features, of the receivers' and of the
  edges', the two weight matrices and the two one-row biases whole, and writes the same rows of the new edges and of
  the updated edges. So what point `t` writes back is block `t` of ONE function of the arrays the region finds: at
  row `r`, column `j`, the edge perceptron's output row of the three rows `r` side by side (and, for the updated
  edges, the edge's own feature added). The 160 blocks tile the 640000 rows — the point that covers row `r` is
  `r / 4000` — so each array ends holding that function.

  The payload's value at an entry of a block is taken as a hypothesis (`PayNew`); it is proved where the block's
  arithmetic is read.
-/
import proofs.«149776_j16320875725329_1_alg».proof.Proof.Gen.KernelIdeal.Frame
import proofs.«149776_j16320875725329_1_alg».proof.Proof.Spec
import Idealize.ShloMosaic.Lib.Pipeline.Value
import Idealize.ShloMosaic.Lib.ValueIdx

set_option maxRecDepth 16384

noncomputable section

namespace Cert.MsgPass.EdgeArr

open Cert.KernelIdeal Cert.KernelIdeal.Gen Cert.MsgPass
open Idealize.ShloMosaic Idealize.ShloMosaic.TcCoe Idealize.ShloMosaic.ValueIdx Idealize.SL.Sem
open Idealize.ShloMosaic.Pipeline (Dat Cfg Window)
open scoped BigOperators

-- the contents of the TensorCore's buffers when the region is entered
variable (V : (c : Dev nD) → (b : Ref sig .tc) → Buf (Elt Ideal) ((c : Thread nD τ).loc b))

theorem hz : (![0, 0] : Fin 2 → Nat) = fun _ => 0 := funext fun a => by fin_cases a <;> rfl

/-- An array of extended reals, as the function of its indices it is. -/
abbrev asE {S : Shape} (X : S.Idx → EReal) : S.Idx → EReal := X

/-- The updated-edge payload is the loaded edge block plus the new-edge payload, entry by entry. -/
theorem pay1_apply (v4 : Vec Ideal S4000x128 .f32) (v34 : FVec Ideal S4000x128 .f32) (y : S4000x128.Idx) :
    k0_pay1 (F := Ideal) v4 v34 y = v4 y + v34 y := rfl

/-- The new-edge payload of one grid point, entry by entry, as a function of the blocks it loads. -/
abbrev PayNew : Prop := ∀ (v0 v2 v4 : Vec Ideal S4000x128 .f32) (v7 : Vec Ideal S384x256 .f32) (v10 : Vec Ideal S1x256 .f32)
    (v28 : Vec Ideal S256x128 .f32) (v31 : Vec Ideal S1x128 .f32) (p : Fin 4000) (j : Fin 128),
    k0_pay2 (F := Ideal) v0 v2 v4 v7 v10 v28 v31 (ix2 p j)
      = mlpRow (cat3 (row v0 p) (row v2 p) (row v4 p)) (mat v7) (fun k : Fin 256 => v10 (ix2 (0 : Fin 1) k))
          (mat v28) (fun k : Fin 128 => v31 (ix2 (0 : Fin 1) k)) j

/-- The new edges as one function of the arrays the region finds: row `i 0`'s perceptron output at column `i 1`. -/
def newEdges (c : Dev nD) : S640000x128.Idx → EReal := fun i =>
  mlpRow (cat3 (row (V c main_v6) (i 0)) (row (V c main_v13) (i 0)) (row (V c main_arg1) (i 0))) (mat (V c main_arg4))
    (fun k : Fin 256 => V c main_v14 (ix2 (0 : Fin 1) k)) (mat (V c main_arg6)) (fun k : Fin 128 => V c main_v15 (ix2 (0 : Fin 1) k)) (i 1)

/-- The updated edges: each edge's feature plus its new edge. -/
def edgesOut (c : Dev nD) : S640000x128.Idx → EReal := fun i => asE (V c main_arg1) i + newEdges V c i

/-- The printed index maps over the grid: the five row-blocked windows move together along the rows, at block
    `t`, and stay at column block 0; the four whole windows stay at block (0, 0). -/
theorem idx_facts0 : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_8.index t (0 : Fin 2) = win0_7.index t (0 : Fin 2) ∧ win0_8.index t (1 : Fin 2) = 0
    ∧ win0_7.index t (0 : Fin 2) = t.val ∧ win0_7.index t (1 : Fin 2) = 0 :=
  (by decide +kernel : ∀ t : Fin grid0.N, _)

/-- The payload of point `t` at entry (p, j) of its block is the new-edge function at the entry's place in the array:
    each loaded block is its array read at the rows the output block covers. -/
theorem point_new (hpay : PayNew) (c : Dev nD) (t : Fin cfg0.N) (p : Fin 4000) (j : Fin 128) :
    k0_pay2 (F := Ideal) (iblk0 V c 0 t) (iblk0 V c 1 t) (iblk0 V c 2 t) (iblk0 V c 3 t) (iblk0 V c 4 t) (iblk0 V c 5 t) (iblk0 V c 6 t) (ix2 p j)
      = newEdges V c (((cfg0.win 7).blk t).view.emb (ix2 p j)) := by
  refine (hpay (iblk0 V c 0 t) (iblk0 V c 1 t) (iblk0 V c 2 t) (iblk0 V c 3 t) (iblk0 V c 4 t) (iblk0 V c 5 t) (iblk0 V c 6 t) p j).trans ?_
  unfold newEdges
  obtain ⟨f00, f01, f10, f11, f20, f21, f30, f31, f40, f41, f50, f51, f60, f61, f80, f81, f70, f71⟩ := idx_facts0 t
  have hp : p.val < 4000 := p.isLt
  have hj : j.val < 128 := j.isLt
  have e1 : (((cfg0.win 7).blk t).view.emb (ix2 p j)) 1 = j := Fin.ext (by
    show win0_7.index t (1 : Fin 2) * 128 + 1 * j.val = j.val; omega)
  have r0 : row (iblk0 V c 0 t) p = row (V c main_v6) ((((cfg0.win 7).blk t).view.emb (ix2 p j)) 0) := funext fun q => by
    show V c main_v6 (((cfg0.win 0).blk t).view.emb (ix2 p q)) = V c main_v6 (ix2 ((((cfg0.win 7).blk t).view.emb (ix2 p j)) 0) q)
    refine congrArg (V c main_v6) ?_
    funext a; apply Fin.ext
    match a with
    | ⟨0, _⟩ => show win0_0.index t (0 : Fin 2) * 4000 + 1 * p.val = win0_7.index t (0 : Fin 2) * 4000 + 1 * p.val; omega
    | ⟨1, _⟩ => show win0_0.index t (1 : Fin 2) * 128 + 1 * q.val = q.val; omega
  have r1 : row (iblk0 V c 1 t) p = row (V c main_v13) ((((cfg0.win 7).blk t).view.emb (ix2 p j)) 0) := funext fun q => by
    show V c main_v13 (((cfg0.win 1).blk t).view.emb (ix2 p q)) = V c main_v13 (ix2 ((((cfg0.win 7).blk t).view.emb (ix2 p j)) 0) q)
    refine congrArg (V c main_v13) ?_
    funext a; apply Fin.ext
    match a with
    | ⟨0, _⟩ => show win0_1.index t (0 : Fin 2) * 4000 + 1 * p.val = win0_7.index t (0 : Fin 2) * 4000 + 1 * p.val; omega
    | ⟨1, _⟩ => show win0_1.index t (1 : Fin 2) * 128 + 1 * q.val = q.val; omega
  have r2 : row (iblk0 V c 2 t) p = row (V c main_arg1) ((((cfg0.win 7).blk t).view.emb (ix2 p j)) 0) := funext fun q => by
    show V c main_arg1 (((cfg0.win 2).blk t).view.emb (ix2 p q)) = V c main_arg1 (ix2 ((((cfg0.win 7).blk t).view.emb (ix2 p j)) 0) q)
    refine congrArg (V c main_arg1) ?_
    funext a; apply Fin.ext
    match a with
    | ⟨0, _⟩ => show win0_2.index t (0 : Fin 2) * 4000 + 1 * p.val = win0_7.index t (0 : Fin 2) * 4000 + 1 * p.val; omega
    | ⟨1, _⟩ => show win0_2.index t (1 : Fin 2) * 128 + 1 * q.val = q.val; omega
  have m3 : mat (iblk0 V c 3 t) = mat (V c main_arg4) := funext fun q => funext fun k => by
    show V c main_arg4 (((cfg0.win 3).blk t).view.emb (ix2 q k)) = V c main_arg4 (ix2 q k)
    refine congrArg (V c main_arg4) ?_
    funext a; apply Fin.ext
    match a with
    | ⟨0, _⟩ => show win0_3.index t (0 : Fin 2) * 384 + 1 * q.val = q.val; omega
    | ⟨1, _⟩ => show win0_3.index t (1 : Fin 2) * 256 + 1 * k.val = k.val; omega
  have b4 : (fun k : Fin 256 => iblk0 V c 4 t (ix2 (0 : Fin 1) k)) = fun k : Fin 256 => V c main_v14 (ix2 (0 : Fin 1) k) := funext fun k => by
    show V c main_v14 (((cfg0.win 4).blk t).view.emb (ix2 (0 : Fin 1) k)) = V c main_v14 (ix2 (0 : Fin 1) k)
    refine congrArg (V c main_v14) ?_
    funext a; apply Fin.ext
    match a with
    | ⟨0, _⟩ => show win0_4.index t (0 : Fin 2) * 1 + 1 * 0 = 0; omega
    | ⟨1, _⟩ => show win0_4.index t (1 : Fin 2) * 256 + 1 * k.val = k.val; omega
  have m5 : mat (iblk0 V c 5 t) = mat (V c main_arg6) := funext fun q => funext fun k => by
    show V c main_arg6 (((cfg0.win 5).blk t).view.emb (ix2 q k)) = V c main_arg6 (ix2 q k)
    refine congrArg (V c main_arg6) ?_
    funext a; apply Fin.ext
    match a with
    | ⟨0, _⟩ => show win0_5.index t (0 : Fin 2) * 256 + 1 * q.val = q.val; omega
    | ⟨1, _⟩ => show win0_5.index t (1 : Fin 2) * 128 + 1 * k.val = k.val; omega
  have b6 : (fun k : Fin 128 => iblk0 V c 6 t (ix2 (0 : Fin 1) k)) = fun k : Fin 128 => V c main_v15 (ix2 (0 : Fin 1) k) := funext fun k => by
    show V c main_v15 (((cfg0.win 6).blk t).view.emb (ix2 (0 : Fin 1) k)) = V c main_v15 (ix2 (0 : Fin 1) k)
    refine congrArg (V c main_v15) ?_
    funext a; apply Fin.ext
    match a with
    | ⟨0, _⟩ => show win0_6.index t (0 : Fin 2) * 1 + 1 * 0 = 0; omega
    | ⟨1, _⟩ => show win0_6.index t (1 : Fin 2) * 128 + 1 * k.val = k.val; omega
  rw [r0, r1, r2, m3, b4, m5, b6, e1]

/-- What point `t` writes back to the new edges is block `t` of `newEdges`. -/
theorem flushed7 (hpay : PayNew) (c : Dev nD) (t : Fin cfg0.N) :
    (dat0 (F := Ideal) V c).flushed 7 t = ((cfg0.win 7).blk t).view.read (Elt Ideal) (newEdges V c) := by
  show (cfg0.win 7).cut (grid0.coords t) ((dat0 (F := Ideal) V c).after 7 t) = _
  rw [after0_7]
  unfold out0_7
  rw [View.canon_unit_zero hz]
  simp only [View.ld_unit_zero (S := S4000x128) hz, View.ld_unit_zero (S := S384x256) hz, View.ld_unit_zero (S := S1x256) hz, View.ld_unit_zero (S := S256x128) hz, View.ld_unit_zero (S := S1x128) hz]
  funext y
  obtain ⟨p, j, rfl⟩ : ∃ (p : Fin 4000) (j : Fin 128), y = ix2 p j := ⟨y 0, y 1, eq_ix2 y⟩
  exact point_new V hpay c t p j

/-- What point `t` writes back to the updated edges is block `t` of `edgesOut`: the edge block it loaded, which is
    the edges' array at the same rows, plus the new-edge payload. -/
theorem flushed8 (hpay : PayNew) (c : Dev nD) (t : Fin cfg0.N) :
    (dat0 (F := Ideal) V c).flushed 8 t = ((cfg0.win 8).blk t).view.read (Elt Ideal) (edgesOut V c) := by
  show (cfg0.win 8).cut (grid0.coords t) ((dat0 (F := Ideal) V c).after 8 t) = _
  rw [after0_8]
  unfold out0_8
  rw [View.canon_unit_zero hz]
  simp only [View.ld_unit_zero (S := S4000x128) hz, View.ld_unit_zero (S := S384x256) hz, View.ld_unit_zero (S := S1x256) hz, View.ld_unit_zero (S := S256x128) hz, View.ld_unit_zero (S := S1x128) hz]
  funext y
  obtain ⟨p, j, rfl⟩ : ∃ (p : Fin 4000) (j : Fin 128), y = ix2 p j := ⟨y 0, y 1, eq_ix2 y⟩
  obtain ⟨f00, f01, f10, f11, f20, f21, f30, f31, f40, f41, f50, f51, f60, f61, f80, f81, f70, f71⟩ := idx_facts0 t
  have e8 : ((cfg0.win 8).blk t).view.emb (ix2 p j) = ((cfg0.win 7).blk t).view.emb (ix2 p j) := by
    funext a; apply Fin.ext
    match a with
    | ⟨0, _⟩ => show win0_8.index t (0 : Fin 2) * 4000 + 1 * p.val = win0_7.index t (0 : Fin 2) * 4000 + 1 * p.val; omega
    | ⟨1, _⟩ => show win0_8.index t (1 : Fin 2) * 128 + 1 * j.val = win0_7.index t (1 : Fin 2) * 128 + 1 * j.val; omega
  have e2 : ((cfg0.win 2).blk t).view.emb (ix2 p j) = ((cfg0.win 7).blk t).view.emb (ix2 p j) := by
    funext a; apply Fin.ext
    match a with
    | ⟨0, _⟩ => show win0_2.index t (0 : Fin 2) * 4000 + 1 * p.val = win0_7.index t (0 : Fin 2) * 4000 + 1 * p.val; omega
    | ⟨1, _⟩ => show win0_2.index t (1 : Fin 2) * 128 + 1 * j.val = win0_7.index t (1 : Fin 2) * 128 + 1 * j.val; omega
  have h2 : iblk0 V c 2 t (ix2 p j) = asE (V c main_arg1) (((cfg0.win 7).blk t).view.emb (ix2 p j)) := by
    show V c main_arg1 (((cfg0.win 2).blk t).view.emb (ix2 p j)) = V c main_arg1 (((cfg0.win 7).blk t).view.emb (ix2 p j))
    rw [e2]
  show k0_pay1 (F := Ideal) (iblk0 V c 2 t) (k0_pay2 (F := Ideal) (iblk0 V c 0 t) (iblk0 V c 1 t) (iblk0 V c 2 t) (iblk0 V c 3 t) (iblk0 V c 4 t) (iblk0 V c 5 t) (iblk0 V c 6 t)) (ix2 p j)
    = edgesOut V c (((cfg0.win 8).blk t).view.emb (ix2 p j))
  refine (pay1_apply (iblk0 V c 2 t) _ (ix2 p j)).trans ?_
  rw [point_new V hpay c t p j, e8]
  unfold edgesOut
  exact congrArg (fun x : EReal => x + newEdges V c (((cfg0.win 7).blk t).view.emb (ix2 p j))) h2

/-- An index of the new edges' array is in point `t`'s block iff each coordinate is in the block's range. -/
theorem mem_blk7 (t : Fin cfg0.N) (i : S640000x128.Idx) :
    i ∈ ((cfg0.win 7).blk t).view.set ↔ ∀ a : Fin 2, win0_7.index t a * S4000x128.size a ≤ (i a).val ∧ (i a).val < win0_7.index t a * S4000x128.size a + S4000x128.size a := by
  show i ∈ ((View.whole main_v18_0).slice (win0_7.rect t)).set ↔ _
  rw [View.set_slice_whole, Rect.mem_set_unit]
  exact Iff.rfl

/-- The same for the updated edges' array. -/
theorem mem_blk8 (t : Fin cfg0.N) (i : S640000x128.Idx) :
    i ∈ ((cfg0.win 8).blk t).view.set ↔ ∀ a : Fin 2, win0_8.index t a * S4000x128.size a ≤ (i a).val ∧ (i a).val < win0_8.index t a * S4000x128.size a + S4000x128.size a := by
  show i ∈ ((View.whole main_v18_1).slice (win0_8.rect t)).set ↔ _
  rw [View.set_slice_whole, Rect.mem_set_unit]
  exact Iff.rfl

/-- Every row is in some point's block: row `r` in point `r / 4000`'s. -/
theorem cover7 (i : S640000x128.Idx) : ∃ t : Fin cfg0.N, (cfg0.win 7).flush t = true ∧ i ∈ ((cfg0.win 7).blk t).view.set := by
  have hi0 : (i 0).val < 640000 := (i 0).isLt
  have hi1 : (i 1).val < 128 := (i 1).isLt
  have hN : cfg0.N = 160 := N_0
  let t : Fin cfg0.N := ⟨(i 0).val / 4000, by rw [hN]; omega⟩
  have ht : t.val = (i 0).val / 4000 := rfl
  obtain ⟨f00, f01, f10, f11, f20, f21, f30, f31, f40, f41, f50, f51, f60, f61, f80, f81, f70, f71⟩ := idx_facts0 t
  refine ⟨t, flush0_7 t, ?_⟩
  rw [mem_blk7]
  intro a
  match a with
  | ⟨0, _⟩ => show win0_7.index t (0 : Fin 2) * 4000 ≤ (i 0).val ∧ (i 0).val < win0_7.index t (0 : Fin 2) * 4000 + 4000; omega
  | ⟨1, _⟩ => show win0_7.index t (1 : Fin 2) * 128 ≤ (i 1).val ∧ (i 1).val < win0_7.index t (1 : Fin 2) * 128 + 128; omega

theorem cover8 (i : S640000x128.Idx) : ∃ t : Fin cfg0.N, (cfg0.win 8).flush t = true ∧ i ∈ ((cfg0.win 8).blk t).view.set := by
  have hi0 : (i 0).val < 640000 := (i 0).isLt
  have hi1 : (i 1).val < 128 := (i 1).isLt
  have hN : cfg0.N = 160 := N_0
  let t : Fin cfg0.N := ⟨(i 0).val / 4000, by rw [hN]; omega⟩
  have ht : t.val = (i 0).val / 4000 := rfl
  obtain ⟨f00, f01, f10, f11, f20, f21, f30, f31, f40, f41, f50, f51, f60, f61, f80, f81, f70, f71⟩ := idx_facts0 t
  refine ⟨t, flush0_8 t, ?_⟩
  rw [mem_blk8]
  intro a
  match a with
  | ⟨0, _⟩ => show win0_8.index t (0 : Fin 2) * 4000 ≤ (i 0).val ∧ (i 0).val < win0_8.index t (0 : Fin 2) * 4000 + 4000; omega
  | ⟨1, _⟩ => show win0_8.index t (1 : Fin 2) * 128 ≤ (i 1).val ∧ (i 1).val < win0_8.index t (1 : Fin 2) * 128 + 128; omega

/-- The new edges' array after the region: `newEdges` of the arrays the region found. -/
theorem arr7 (hpay : PayNew) (c : Dev nD) : (dat0 (F := Ideal) V c).arrAt 7 cfg0.N = newEdges V c :=
  (dat0 (F := Ideal) V c).arrAt_eq_of_cover 7 (newEdges V c) (fun t _ => flushed7 V hpay c t) cover7

/-- The updated edges' array after the region: `edgesOut` of the arrays the region found. -/
theorem arr8 (hpay : PayNew) (c : Dev nD) : (dat0 (F := Ideal) V c).arrAt 8 cfg0.N = edgesOut V c :=
  (dat0 (F := Ideal) V c).arrAt_eq_of_cover 8 (edgesOut V c) (fun t _ => flushed8 V hpay c t) cover8

end Cert.MsgPass.EdgeArr

end
-- ==== Proof.NodeArr.lean ====
/-
  The second kernel's output array after its 25 grid points.

  Point `t` of the grid reads rows `2000·t … 2000·t + 1999` of the nodes' features and of the messages summed into
  them, the two weight matrices and the two one-row biases whole, and writes the same rows of the new nodes. So what
  point `t` writes back is block `t` of ONE function of the arrays the region finds: at row `r`, column `j`, the
  node's own feature plus the node perceptron's output row of the two rows `r` side by side. The 25 blocks tile the
  50000 rows — the point that covers row `r` is `r / 2000` — so the array ends holding that function.

  The payload's value at an entry of a block is taken as a hypothesis (`PayNode`); it is proved where the block's
  arithmetic is read.
-/
import proofs.«149776_j16320875725329_1_alg».proof.Proof.Gen.KernelIdeal.Frame
import proofs.«149776_j16320875725329_1_alg».proof.Proof.Spec
import Idealize.ShloMosaic.Lib.Pipeline.Value
import Idealize.ShloMosaic.Lib.ValueIdx

set_option maxRecDepth 16384

noncomputable section

namespace Cert.MsgPass.NodeArr

open Cert.KernelIdeal Cert.KernelIdeal.Gen Cert.MsgPass
open Idealize.ShloMosaic Idealize.ShloMosaic.TcCoe Idealize.ShloMosaic.ValueIdx Idealize.SL.Sem
open Idealize.ShloMosaic.Pipeline (Dat Cfg Window)
open scoped BigOperators

-- the contents of the TensorCore's buffers when the region is entered
variable (V : (c : Dev nD) → (b : Ref sig .tc) → Buf (Elt Ideal) ((c : Thread nD τ).loc b))

theorem hz : (![0, 0] : Fin 2 → Nat) = fun _ => 0 := funext fun a => by fin_cases a <;> rfl

/-- An array of extended reals, as the function of its indices it is. -/
abbrev asE {S : Shape} (X : S.Idx → EReal) : S.Idx → EReal := X

/-- The node payload of one grid point, entry by entry, as a function of the blocks it loads. -/
abbrev PayNode : Prop := ∀ (v0 v1 : Vec Ideal S2000x128 .f32) (v5 : Vec Ideal S256x256 .f32) (v8 : Vec Ideal S1x256 .f32)
    (v26 : Vec Ideal S256x128 .f32) (v29 : Vec Ideal S1x128 .f32) (p : Fin 2000) (j : Fin 128),
    k1_pay1 (F := Ideal) v0 v1 v5 v8 v26 v29 (ix2 p j)
      = v0 (ix2 p j) + mlpRow (cat2 (row v0 p) (row v1 p)) (mat v5) (fun k : Fin 256 => v8 (ix2 (0 : Fin 1) k))
          (mat v26) (fun k : Fin 128 => v29 (ix2 (0 : Fin 1) k)) j

/-- The new nodes as one function of the arrays the region finds: the node's feature plus row `i 0`'s perceptron
    output at column `i 1`. -/
def nodesOut (c : Dev nD) : S50000x128.Idx → EReal := fun i =>
  asE (V c main_arg0) i + mlpRow (cat2 (row (V c main_arg0) (i 0)) (row (V c main_v21) (i 0))) (mat (V c main_arg8))
    (fun k : Fin 256 => V c main_v16 (ix2 (0 : Fin 1) k)) (mat (V c main_arg10)) (fun k : Fin 128 => V c main_v17 (ix2 (0 : Fin 1) k)) (i 1)

/-- The printed index maps over the grid: the three row-blocked windows move together along the rows, at block
    `t`, and stay at column block 0; the four whole windows stay at block (0, 0). -/
theorem idx_facts1 : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The payload of point `t` at entry (p, j) of its block is the new-node function at the entry's place in the array:
    each loaded block is its array read at the rows the output block covers. -/
theorem point_node (hpay : PayNode) (c : Dev nD) (t : Fin cfg1.N) (p : Fin 2000) (j : Fin 128) :
    k1_pay1 (F := Ideal) (iblk1 V c 0 t) (iblk1 V c 1 t) (iblk1 V c 2 t) (iblk1 V c 3 t) (iblk1 V c 4 t) (iblk1 V c 5 t) (ix2 p j)
      = nodesOut V c (((cfg1.win 6).blk t).view.emb (ix2 p j)) := by
  refine (hpay (iblk1 V c 0 t) (iblk1 V c 1 t) (iblk1 V c 2 t) (iblk1 V c 3 t) (iblk1 V c 4 t) (iblk1 V c 5 t) p j).trans ?_
  unfold nodesOut
  obtain ⟨f00, f01, f10, f11, f20, f21, f30, f31, f40, f41, f50, f51, f60, f61⟩ := idx_facts1 t
  have hp : p.val < 2000 := p.isLt
  have hj : j.val < 128 := j.isLt
  have e1 : (((cfg1.win 6).blk t).view.emb (ix2 p j)) 1 = j := Fin.ext (by
    show win1_6.index t (1 : Fin 2) * 128 + 1 * j.val = j.val; omega)
  have h0 : iblk1 V c 0 t (ix2 p j) = asE (V c main_arg0) (((cfg1.win 6).blk t).view.emb (ix2 p j)) := by
    show V c main_arg0 (((cfg1.win 0).blk t).view.emb (ix2 p j)) = V c main_arg0 (((cfg1.win 6).blk t).view.emb (ix2 p j))
    refine congrArg (V c main_arg0) ?_
    funext a; apply Fin.ext
    match a with
    | ⟨0, _⟩ => show win1_0.index t (0 : Fin 2) * 2000 + 1 * p.val = win1_6.index t (0 : Fin 2) * 2000 + 1 * p.val; omega
    | ⟨1, _⟩ => show win1_0.index t (1 : Fin 2) * 128 + 1 * j.val = win1_6.index t (1 : Fin 2) * 128 + 1 * j.val; omega
  have r0 : row (iblk1 V c 0 t) p = row (V c main_arg0) ((((cfg1.win 6).blk t).view.emb (ix2 p j)) 0) := funext fun q => by
    show V c main_arg0 (((cfg1.win 0).blk t).view.emb (ix2 p q)) = V c main_arg0 (ix2 ((((cfg1.win 6).blk t).view.emb (ix2 p j)) 0) q)
    refine congrArg (V c main_arg0) ?_
    funext a; apply Fin.ext
    match a with
    | ⟨0, _⟩ => show win1_0.index t (0 : Fin 2) * 2000 + 1 * p.val = win1_6.index t (0 : Fin 2) * 2000 + 1 * p.val; omega
    | ⟨1, _⟩ => show win1_0.index t (1 : Fin 2) * 128 + 1 * q.val = q.val; omega
  have r1 : row (iblk1 V c 1 t) p = row (V c main_v21) ((((cfg1.win 6).blk t).view.emb (ix2 p j)) 0) := funext fun q => by
    show V c main_v21 (((cfg1.win 1).blk t).view.emb (ix2 p q)) = V c main_v21 (ix2 ((((cfg1.win 6).blk t).view.emb (ix2 p j)) 0) q)
    refine congrArg (V c main_v21) ?_
    funext a; apply Fin.ext
    match a with
    | ⟨0, _⟩ => show win1_1.index t (0 : Fin 2) * 2000 + 1 * p.val = win1_6.index t (0 : Fin 2) * 2000 + 1 * p.val; omega
    | ⟨1, _⟩ => show win1_1.index t (1 : Fin 2) * 128 + 1 * q.val = q.val; omega
  have m2 : mat (iblk1 V c 2 t) = mat (V c main_arg8) := funext fun q => funext fun k => by
    show V c main_arg8 (((cfg1.win 2).blk t).view.emb (ix2 q k)) = V c main_arg8 (ix2 q k)
    refine congrArg (V c main_arg8) ?_
    funext a; apply Fin.ext
    match a with
    | ⟨0, _⟩ => show win1_2.index t (0 : Fin 2) * 256 + 1 * q.val = q.val; omega
    | ⟨1, _⟩ => show win1_2.index t (1 : Fin 2) * 256 + 1 * k.val = k.val; omega
  have b3 : (fun k : Fin 256 => iblk1 V c 3 t (ix2 (0 : Fin 1) k)) = fun k : Fin 256 => V c main_v16 (ix2 (0 : Fin 1) k) := funext fun k => by
    show V c main_v16 (((cfg1.win 3).blk t).view.emb (ix2 (0 : Fin 1) k)) = V c main_v16 (ix2 (0 : Fin 1) k)
    refine congrArg (V c main_v16) ?_
    funext a; apply Fin.ext
    match a with
    | ⟨0, _⟩ => show win1_3.index t (0 : Fin 2) * 1 + 1 * 0 = 0; omega
    | ⟨1, _⟩ => show win1_3.index t (1 : Fin 2) * 256 + 1 * k.val = k.val; omega
  have m4 : mat (iblk1 V c 4 t) = mat (V c main_arg10) := funext fun q => funext fun k => by
    show V c main_arg10 (((cfg1.win 4).blk t).view.emb (ix2 q k)) = V c main_arg10 (ix2 q k)
    refine congrArg (V c main_arg10) ?_
    funext a; apply Fin.ext
    match a with
    | ⟨0, _⟩ => show win1_4.index t (0 : Fin 2) * 256 + 1 * q.val = q.val; omega
    | ⟨1, _⟩ => show win1_4.index t (1 : Fin 2) * 128 + 1 * k.val = k.val; omega
  have b5 : (fun k : Fin 128 => iblk1 V c 5 t (ix2 (0 : Fin 1) k)) = fun k : Fin 128 => V c main_v17 (ix2 (0 : Fin 1) k) := funext fun k => by
    show V c main_v17 (((cfg1.win 5).blk t).view.emb (ix2 (0 : Fin 1) k)) = V c main_v17 (ix2 (0 : Fin 1) k)
    refine congrArg (V c main_v17) ?_
    funext a; apply Fin.ext
    match a with
    | ⟨0, _⟩ => show win1_5.index t (0 : Fin 2) * 1 + 1 * 0 = 0; omega
    | ⟨1, _⟩ => show win1_5.index t (1 : Fin 2) * 128 + 1 * k.val = k.val; omega
  rw [h0, r0, r1, m2, b3, m4, b5, e1]

/-- What point `t` writes back to the new nodes is block `t` of `nodesOut`. -/
theorem flushed6 (hpay : PayNode) (c : Dev nD) (t : Fin cfg1.N) :
    (dat1 (F := Ideal) V c).flushed 6 t = ((cfg1.win 6).blk t).view.read (Elt Ideal) (nodesOut V c) := by
  show (cfg1.win 6).cut (grid1.coords t) ((dat1 (F := Ideal) V c).after 6 t) = _
  rw [after1_6]
  unfold out1_6
  rw [View.canon_unit_zero hz]
  simp only [View.ld_unit_zero (S := S2000x128) hz, View.ld_unit_zero (S := S256x256) hz, View.ld_unit_zero (S := S1x256) hz, View.ld_unit_zero (S := S256x128) hz, View.ld_unit_zero (S := S1x128) hz]
  funext y
  obtain ⟨p, j, rfl⟩ : ∃ (p : Fin 2000) (j : Fin 128), y = ix2 p j := ⟨y 0, y 1, eq_ix2 y⟩
  exact point_node V hpay c t p j

/-- An index of the new nodes' array is in point `t`'s block iff each coordinate is in the block's range. -/
theorem mem_blk6 (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v22).slice (win1_6.rect t)).set ↔ _
  rw [View.set_slice_whole, Rect.mem_set_unit]
  exact Iff.rfl

/-- Every row is in some point's block: row `r` in point `r / 2000`'s. -/
theorem cover6 (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  have ht : t.val = (i 0).val / 2000 := rfl
  obtain ⟨f00, f01, f10, f11, f20, f21, f30, f31, f40, f41, f50, f51, f60, f61⟩ := idx_facts1 t
  refine ⟨t, flush1_6 t, ?_⟩
  rw [mem_blk6]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 128 ≤ (i 1).val ∧ (i 1).val < win1_6.index t (1 : Fin 2) * 128 + 128; omega

/-- The new nodes' array after the region: `nodesOut` of the arrays the region found. -/
theorem arr6 (hpay : PayNode) (c : Dev nD) : (dat1 (F := Ideal) V c).arrAt 6 cfg1.N = nodesOut V c :=
  (dat1 (F := Ideal) V c).arrAt_eq_of_cover 6 (nodesOut V c) (fun t _ => flushed6 V hpay c t) cover6

end Cert.MsgPass.NodeArr

end
-- ==== Proof.RefValue.lean ====
/-
  The reference's two perceptrons, entry by entry.

  The reference computes the layer on whole arrays: it gathers the senders' and the receivers' features, lays them
  beside the edges' features, applies the edge perceptron to every row, adds the rows of new edges into their
  receivers' rows, lays the sums beside the nodes' features and applies the node perceptron to every row. Read at row
  `p` and column `j`, each perceptron's output is the perceptron's output row of the input rows `p` laid side by
  side; the gathers and the scatter-add stay unopened, as the arrays they are. The host's matrix products are plain sums
  over the contracted axis, its biases are broadcast along the rows, and its GELU groups the cube as `(h · h) · h`.
-/
import proofs.«149776_j16320875725329_1_alg».proof.Proof.Gen.ReferenceIdeal.Read
import proofs.«149776_j16320875725329_1_alg».proof.Proof.Spec
import Idealize.ShloMosaic.Lib.Pipeline.Value
import Idealize.ShloMosaic.Lib.ValueIdx
import Idealize.ShloMosaic.PureOps.Ideal.Laws

noncomputable section

namespace Cert.MsgPass.RefValue

open Cert.ReferenceIdeal Cert.ReferenceIdeal.Read Cert.MsgPass
open Idealize.ShloMosaic Idealize.ShloMosaic.ValueIdx
open scoped BigOperators

/-- Three pieces of 128 columns joined along the columns, read at row `p`, column `q`: the piece whose span of
    columns holds `q`, at `q` less the columns before it. -/
theorem concat3_read (a b c : S640000x128.Idx → EReal)
    (h : Shape.Concatenates [S640000x128, S640000x128, S640000x128] S640000x384 1) (p : Fin 640000) (q : Fin 384) :
    concatenate S640000x384 1 [⟨S640000x128, a⟩, ⟨S640000x128, b⟩, ⟨S640000x128, c⟩] h (ix2 p q)
      = cat3 (row a p) (row b p) (row c p) q := by
  unfold cat3
  by_cases h1 : q.val < 128
  · rw [dif_pos h1]
    exact concatenate_apply_piece (t := S640000x384) 1 [⟨S640000x128, a⟩, ⟨S640000x128, b⟩, ⟨S640000x128, c⟩] h
      (ix2 p q) 0 (by show 0 < 3; omega) S640000x128 a rfl rfl 0 rfl (ix2 p ⟨q.val, h1⟩)
      (fun d hd => by
        match d with
        | ⟨0, _⟩ => rfl
        | ⟨1, _⟩ => exact absurd rfl hd)
      (by show 0 + q.val = q.val; omega)
  · rw [dif_neg h1]
    by_cases h2 : q.val < 256
    · rw [dif_pos h2]
      exact concatenate_apply_piece (t := S640000x384) 1 [⟨S640000x128, a⟩, ⟨S640000x128, b⟩, ⟨S640000x128, c⟩] h
        (ix2 p q) 1 (by show 1 < 3; omega) S640000x128 b rfl rfl 128 rfl (ix2 p ⟨q.val - 128, by omega⟩)
        (fun d hd => by
          match d with
          | ⟨0, _⟩ => rfl
          | ⟨1, _⟩ => exact absurd rfl hd)
        (by show 128 + (q.val - 128) = q.val; omega)
    · rw [dif_neg h2]
      exact concatenate_apply_piece (t := S640000x384) 1 [⟨S640000x128, a⟩, ⟨S640000x128, b⟩, ⟨S640000x128, c⟩] h
        (ix2 p q) 2 (by show 2 < 3; omega) S640000x128 c rfl rfl 256 rfl (ix2 p ⟨q.val - 256, by omega⟩)
        (fun d hd => by
          match d with
          | ⟨0, _⟩ => rfl
          | ⟨1, _⟩ => exact absurd rfl hd)
        (by show 256 + (q.val - 256) = q.val; omega)

/-- Two pieces of 128 columns joined along the columns, read at row `p`, column `q`. -/
theorem concat2_read (a b : S50000x128.Idx → EReal)
    (h : Shape.Concatenates [S50000x128, S50000x128] S50000x256 1) (p : Fin 50000) (q : Fin 256) :
    concatenate S50000x256 1 [⟨S50000x128, a⟩, ⟨S50000x128, b⟩] h (ix2 p q)
      = cat2 (row a p) (row b p) q := by
  unfold cat2
  by_cases h1 : q.val < 128
  · rw [dif_pos h1]
    exact concatenate_apply_piece (t := S50000x256) 1 [⟨S50000x128, a⟩, ⟨S50000x128, b⟩] h
      (ix2 p q) 0 (by show 0 < 2; omega) S50000x128 a rfl rfl 0 rfl (ix2 p ⟨q.val, h1⟩)
      (fun d hd => by
        match d with
        | ⟨0, _⟩ => rfl
        | ⟨1, _⟩ => exact absurd rfl hd)
      (by show 0 + q.val = q.val; omega)
  · rw [dif_neg h1]
    exact concatenate_apply_piece (t := S50000x256) 1 [⟨S50000x128, a⟩, ⟨S50000x128, b⟩] h
      (ix2 p q) 1 (by show 1 < 2; omega) S50000x128 b rfl rfl 128 rfl (ix2 p ⟨q.val - 128, by omega⟩)
      (fun d hd => by
        match d with
        | ⟨0, _⟩ => rfl
        | ⟨1, _⟩ => exact absurd rfl hd)
      (by show 128 + (q.val - 128) = q.val; omega)

variable (x0 : (⟨S50000x128, .f32⟩ : BufTy).Contents (Elt Ideal)) (x1 : (⟨S640000x128, .f32⟩ : BufTy).Contents (Elt Ideal))
  (x2 x3 : (⟨S640000, .i32⟩ : BufTy).Contents (Elt Ideal)) (x4 : (⟨S384x256, .f32⟩ : BufTy).Contents (Elt Ideal))
  (x5 : (⟨S256, .f32⟩ : BufTy).Contents (Elt Ideal)) (x6 : (⟨S256x128, .f32⟩ : BufTy).Contents (Elt Ideal))
  (x7 : (⟨S128, .f32⟩ : BufTy).Contents (Elt Ideal)) (x8 : (⟨S256x256, .f32⟩ : BufTy).Contents (Elt Ideal))
  (x9 : (⟨S256, .f32⟩ : BufTy).Contents (Elt Ideal)) (x10 : (⟨S256x128, .f32⟩ : BufTy).Contents (Elt Ideal))
  (x11 : (⟨S128, .f32⟩ : BufTy).Contents (Elt Ideal))

/-! ## The edge perceptron -/

/-- The edge perceptron's input at row `p`, column `q`: the sender's, the receiver's and the edge's rows side by
    side. -/
theorem edge_input (p : Fin 640000) (q : Fin 384) :
    val_main_v14 (F := Ideal) x0 x1 x2 x3 (ix2 p q)
      = cat3 (row (val_main_v6 (F := Ideal) x0 x2) p) (row (val_main_v13 (F := Ideal) x0 x3) p) (row x1 p) q := by
  unfold val_main_v14
  exact concat3_read _ _ _ _ p q

/-- The edge perceptron's hidden layer at row `p`, column `k`: the sum over the 384 inputs plus the bias, which is
    broadcast along the rows. -/
theorem edge_hidden (p : Fin 640000) (k : Fin 256) :
    val_main_v18 (F := Ideal) x0 x1 x2 x3 x4 x5 (ix2 p k)
      = (∑ q : Fin 384, cat3 (row (val_main_v6 (F := Ideal) x0 x2) p) (row (val_main_v13 (F := Ideal) x0 x3) p)
          (row x1 p) q * x4 (ix2 q k)) + x5 (ix1 k) := by
  rw [val_main_v18_apply, val_main_v15_apply, val_main_v17_apply, val_main_v16_apply, Ideal.addf_def]
  have eb : idx_main_v16 (idx_main_v17 (ix2 p k)) = ix1 k := funext fun a => Fin.ext (by
    match a with
    | ⟨0, _⟩ => rfl)
  rw [eb]
  refine congrArg (· + x5 (ix1 k)) (Finset.sum_congr rfl fun q _ => ?_)
  have el : lidx_main_v15 (ix2 p k) q = ix2 p q := funext fun a => Fin.ext (by
    match a with
    | ⟨0, _⟩ => rfl
    | ⟨1, _⟩ => rfl)
  have er : ridx_main_v15 (ix2 p k) q = ix2 q k := funext fun a => Fin.ext (by
    match a with
    | ⟨0, _⟩ => rfl
    | ⟨1, _⟩ => rfl)
  rw [el, er, edge_input]

/-- The edge perceptron's activation at row `p`, column `k`: GELU of the hidden layer, the reference grouping the
    cube as `(h · h) · h`. -/
theorem edge_gelu (p : Fin 640000) (k : Fin 256) :
    val_main_v31 (F := Ideal) x0 x1 x2 x3 x4 x5 (ix2 p k)
      = gelu (val_main_v18 (F := Ideal) x0 x1 x2 x3 x4 x5 (ix2 p k)) := by
  rw [val_main_v31_apply, val_main_v30_apply, val_main_v29_apply, val_main_cst_5_apply, val_main_v28_apply,
    val_main_v27_apply, val_main_cst_4_apply, val_main_v26_apply, val_main_v25_apply, val_main_v24_apply,
    val_main_cst_3_apply, val_main_v23_apply, val_main_v22_apply, val_main_v21_apply, val_main_cst_apply,
    val_main_v20_apply, val_main_v19_apply]
  exact gelu_cube_comm _

/-- The reference's new edges at row `p`, column `j`. -/
theorem new_edges (p : Fin 640000) (j : Fin 128) :
    val_main_v35 (F := Ideal) x0 x1 x2 x3 x4 x5 x6 x7 (ix2 p j)
      = mlpRow (cat3 (row (val_main_v6 (F := Ideal) x0 x2) p) (row (val_main_v13 (F := Ideal) x0 x3) p) (row x1 p))
          (mat x4) (vec x5) (mat x6) (vec x7) j := by
  rw [val_main_v35_apply, val_main_v32_apply, val_main_v34_apply, val_main_v33_apply, Ideal.addf_def]
  have eb : idx_main_v33 (idx_main_v34 (ix2 p j)) = ix1 j := funext fun a => Fin.ext (by
    match a with
    | ⟨0, _⟩ => rfl)
  rw [eb]
  unfold mlpRow
  refine congrArg (· + x7 (ix1 j)) (Finset.sum_congr rfl fun k _ => ?_)
  have el : lidx_main_v32 (ix2 p j) k = ix2 p k := funext fun a => Fin.ext (by
    match a with
    | ⟨0, _⟩ => rfl
    | ⟨1, _⟩ => rfl)
  have er : ridx_main_v32 (ix2 p j) k = ix2 k j := funext fun a => Fin.ext (by
    match a with
    | ⟨0, _⟩ => rfl
    | ⟨1, _⟩ => rfl)
  rw [el, er, edge_gelu, edge_hidden]

/-! ## The node perceptron -/

/-- The node perceptron's input at row `p`, column `q`: the node's row beside the row of messages summed into it. -/
theorem node_input (p : Fin 50000) (q : Fin 256) :
    val_main_v39 (F := Ideal) x0 x1 x2 x3 x4 x5 x6 x7 (ix2 p q)
      = cat2 (row x0 p) (row (val_main_v38 (F := Ideal) x0 x1 x2 x3 x4 x5 x6 x7) p) q := by
  unfold val_main_v39
  exact concat2_read _ _ _ p q

/-- The node perceptron's hidden layer at row `p`, column `k`: the sum over the 256 inputs plus the bias. -/
theorem node_hidden (p : Fin 50000) (k : Fin 256) :
    val_main_v43 (F := Ideal) x0 x1 x2 x3 x4 x5 x6 x7 x8 x9 (ix2 p k)
      = (∑ q : Fin 256, cat2 (row x0 p) (row (val_main_v38 (F := Ideal) x0 x1 x2 x3 x4 x5 x6 x7) p) q
          * x8 (ix2 q k)) + x9 (ix1 k) := by
  rw [val_main_v43_apply, val_main_v40_apply, val_main_v42_apply, val_main_v41_apply, Ideal.addf_def]
  have eb : idx_main_v41 (idx_main_v42 (ix2 p k)) = ix1 k := funext fun a => Fin.ext (by
    match a with
    | ⟨0, _⟩ => rfl)
  rw [eb]
  refine congrArg (· + x9 (ix1 k)) (Finset.sum_congr rfl fun q _ => ?_)
  have el : lidx_main_v40 (ix2 p k) q = ix2 p q := funext fun a => Fin.ext (by
    match a with
    | ⟨0, _⟩ => rfl
    | ⟨1, _⟩ => rfl)
  have er : ridx_main_v40 (ix2 p k) q = ix2 q k := funext fun a => Fin.ext (by
    match a with
    | ⟨0, _⟩ => rfl
    | ⟨1, _⟩ => rfl)
  rw [el, er, node_input]

/-- The node perceptron's activation at row `p`, column `k`: GELU of the hidden layer. -/
theorem node_gelu (p : Fin 50000) (k : Fin 256) :
    val_main_v56 (F := Ideal) x0 x1 x2 x3 x4 x5 x6 x7 x8 x9 (ix2 p k)
      = gelu (val_main_v43 (F := Ideal) x0 x1 x2 x3 x4 x5 x6 x7 x8 x9 (ix2 p k)) := by
  rw [val_main_v56_apply, val_main_v55_apply, val_main_v54_apply, val_main_cst_10_apply, val_main_v53_apply,
    val_main_v52_apply, val_main_cst_9_apply, val_main_v51_apply, val_main_v50_apply, val_main_v49_apply,
    val_main_cst_8_apply, val_main_v48_apply, val_main_v47_apply, val_main_v46_apply, val_main_cst_7_apply,
    val_main_v45_apply, val_main_v44_apply]
  exact gelu_cube_comm _

/-- The reference's new nodes at row `p`, column `j`: the node's feature plus the node perceptron's output. -/
theorem nodes_out (p : Fin 50000) (j : Fin 128) :
    val_main_v61 (F := Ideal) x0 x1 x2 x3 x4 x5 x6 x7 x8 x9 x10 x11 (ix2 p j)
      = x0 (ix2 p j) + mlpRow (cat2 (row x0 p) (row (val_main_v38 (F := Ideal) x0 x1 x2 x3 x4 x5 x6 x7) p))
          (mat x8) (vec x9) (mat x10) (vec x11) j := by
  rw [val_main_v61_apply, val_main_v60_apply, val_main_v57_apply, val_main_v59_apply, val_main_v58_apply,
    Ideal.addf_def, Ideal.addf_def]
  have eb : idx_main_v58 (idx_main_v59 (ix2 p j)) = ix1 j := funext fun a => Fin.ext (by
    match a with
    | ⟨0, _⟩ => rfl)
  rw [eb]
  unfold mlpRow
  refine congrArg (x0 (ix2 p j) + ·) (congrArg (· + x11 (ix1 j)) (Finset.sum_congr rfl fun k _ => ?_))
  have el : lidx_main_v57 (ix2 p j) k = ix2 p k := funext fun a => Fin.ext (by
    match a with
    | ⟨0, _⟩ => rfl
    | ⟨1, _⟩ => rfl)
  have er : ridx_main_v57 (ix2 p j) k = ix2 k j := funext fun a => Fin.ext (by
    match a with
    | ⟨0, _⟩ => rfl
    | ⟨1, _⟩ => rfl)
  rw [el, er, node_gelu, node_hidden]

end Cert.MsgPass.RefValue

end
-- ==== Proof.KValue.lean ====
/-
  The kernel program's two results as functions of the launch arrays.

  @main runs a stretch of host operations (the two gathers of node rows, the four biases recast as one-row
  matrices), the first kernel, a second stretch (the rows of new edges added into their receivers' rows) and the
  second kernel. Walking the results back through these boundaries: the updated edges are the first kernel's second
  output array, which no later step writes; the new nodes are the second kernel's output array. Each kernel's array
  is its one function of the arrays the kernel finds on entry, and every one of those is either an argument as
  launched, a gather or a recast bias of the first stretch, or the scatter-add of the first kernel's new edges.

  The gathers and the scatter-add are the very terms the reference program computes, on the same operands, so they
  are identified with the reference's own stages and never opened; the new edges going into the scatter-add are the
  reference's new edges entry by entry. Both results then meet the reference's stages read entry by entry.
-/
import proofs.«149776_j16320875725329_1_alg».proof.Proof.Gen.KernelIdeal.Frame
import proofs.«149776_j16320875725329_1_alg».proof.Proof.Gen.ReferenceIdeal.Read
import proofs.«149776_j16320875725329_1_alg».proof.Proof.Spec
import proofs.«149776_j16320875725329_1_alg».proof.Proof.EdgeBody
import proofs.«149776_j16320875725329_1_alg».proof.Proof.NodeBody
import proofs.«149776_j16320875725329_1_alg».proof.Proof.EdgeArr
import proofs.«149776_j16320875725329_1_alg».proof.Proof.NodeArr
import proofs.«149776_j16320875725329_1_alg».proof.Proof.RefValue
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.MsgPass.KValue

open Cert.KernelIdeal Cert.KernelIdeal.Gen Cert.MsgPass
open Idealize.ShloMosaic Idealize.ShloMosaic.TcCoe Idealize.ShloMosaic.ValueIdx Idealize.SL.Sem Idealize.ShloMosaic.StableHlo
open scoped BigOperators

variable (m : (ℓ : Loc nD τ sig) → Buf (Elt Ideal) ℓ) (ρ : Dev nD → PrngReg)

/-! ## On entry to the first kernel -/

/-- `main_arg1` is as launched when the first region is entered: no host operation before it writes it. -/
theorem V1_main_arg1 (c : Dev nD) : V1 m ρ c main_arg1 = m ((c : Thread nD τ).loc main_arg1) :=
  (StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
/-- `main_arg4` is as launched when the first region is entered: no host operation before it writes it. -/
theorem V1_main_arg4 (c : Dev nD) : V1 m ρ c main_arg4 = m ((c : Thread nD τ).loc main_arg4) :=
  (StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
/-- `main_arg6` is as launched when the first region is entered: no host operation before it writes it. -/
theorem V1_main_arg6 (c : Dev nD) : V1 m ρ c main_arg6 = m ((c : Thread nD τ).loc main_arg6) :=
  (StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-- The senders' rows: the first stretch's gather, which is the reference's own gather of the same arrays. -/
theorem V1_main_v6 (c : Dev nD) :
    V1 m ρ c main_v6 = Cert.ReferenceIdeal.Read.val_main_v6 (F := Ideal) (m ((c : Thread nD τ).loc main_arg0)) (m ((c : Thread nD τ).loc main_arg2)) := by
  show StableHlo.after hostOps0 (W0 m ρ c) (Proc.devRef .tc main_v6) = _
  after_results
  rfl

/-- The receivers' rows, likewise. -/
theorem V1_main_v13 (c : Dev nD) :
    V1 m ρ c main_v13 = Cert.ReferenceIdeal.Read.val_main_v13 (F := Ideal) (m ((c : Thread nD τ).loc main_arg0)) (m ((c : Thread nD τ).loc main_arg3)) := by
  show StableHlo.after hostOps0 (W0 m ρ c) (Proc.devRef .tc main_v13) = _
  after_results
  rfl

/-- The first bias of the edge perceptron, recast as a one-row matrix, read along its row. -/
theorem V1_main_v14 (c : Dev nD) :
    (fun k : Fin 256 => V1 m ρ c main_v14 (ix2 (0 : Fin 1) k)) = vec (m ((c : Thread nD τ).loc main_arg5)) := funext fun k => by
  show StableHlo.after hostOps0 (W0 m ρ c) (Proc.devRef .tc main_v14) (ix2 (0 : Fin 1) k) = _
  after_results
  exact shapeCast_a_1a_apply (m ((c : Thread nD τ).loc main_arg5)) shapeCasts_S256_S1x256 (0 : Fin 1) k

/-- The second bias of the edge perceptron, likewise. -/
theorem V1_main_v15 (c : Dev nD) :
    (fun k : Fin 128 => V1 m ρ c main_v15 (ix2 (0 : Fin 1) k)) = vec (m ((c : Thread nD τ).loc main_arg7)) := funext fun k => by
  show StableHlo.after hostOps0 (W0 m ρ c) (Proc.devRef .tc main_v15) (ix2 (0 : Fin 1) k) = _
  after_results
  exact shapeCast_a_1a_apply (m ((c : Thread nD τ).loc main_arg7)) shapeCasts_S128_S1x128 (0 : Fin 1) k

/-! ## After the first kernel -/

/-- The first kernel's new edges are the reference's new edges, entry by entry: the same perceptron row of the same
    three rows side by side. -/
theorem newEdges_eq (c : Dev nD) :
    EdgeArr.newEdges (V1 m ρ) c = Cert.ReferenceIdeal.Read.val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext i
  obtain ⟨p, j, rfl⟩ : ∃ (p : Fin 640000) (j : Fin 128), i = ix2 p j := ⟨i 0, i 1, eq_ix2 i⟩
  refine Eq.trans ?_ (RefValue.new_edges _ _ _ _ _ _ _ _ p j).symm
  unfold EdgeArr.newEdges
  show mlpRow (cat3 (row (V1 m ρ c main_v6) p) (row (V1 m ρ c main_v13) p) (row (V1 m ρ c main_arg1) p)) (mat (V1 m ρ c main_arg4))
      (fun k : Fin 256 => V1 m ρ c main_v14 (ix2 (0 : Fin 1) k)) (mat (V1 m ρ c main_arg6)) (fun k : Fin 128 => V1 m ρ c main_v15 (ix2 (0 : Fin 1) k)) j = _
  rw [V1_main_v6, V1_main_v13, V1_main_arg1, V1_main_arg4, V1_main_arg6, V1_main_v14, V1_main_v15]

/-- The new edges' array when the first kernel has run. -/
theorem W2_main_v18_0 (c : Dev nD) :
    W2 m ρ c (Proc.devRef .tc main_v18_0) = Cert.ReferenceIdeal.Read.val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((W2_arr m ρ c 7).trans (EdgeArr.arr7 (V1 m ρ) EdgeBody.pay_new c)).trans (newEdges_eq m ρ c)

/-- The receivers' indices are as launched when the first kernel has run. -/
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := rfl

/-! ## The updated edges -/

/-- THE UPDATED EDGES: the first kernel's second output array, untouched afterwards, is the reference's second
    result as a function of the launch arrays. -/
theorem edges_out (c : Dev nD) :
    W4 m ρ c (Proc.devRef .tc main_v18_1) = Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have h : W4 m ρ c (Proc.devRef .tc main_v18_1) = EdgeArr.edgesOut (V1 m ρ) c :=
    calc W4 m ρ c (Proc.devRef .tc main_v18_1)
      _ = W3 m ρ c (Proc.devRef .tc main_v18_1) := W4_of_ne m ρ c main_v18_1 (by decide)
      _ = W2 m ρ c (Proc.devRef .tc main_v18_1) := StableHlo.after_of_forall_not_mem (b := Proc.devRef .tc main_v18_1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
      _ = EdgeArr.edgesOut (V1 m ρ) c := (W2_arr m ρ c 8).trans (EdgeArr.arr8 (V1 m ρ) EdgeBody.pay_new c)
  rw [h]
  funext i
  show EdgeArr.asE (V1 m ρ c main_arg1) i + EdgeArr.newEdges (V1 m ρ) c i = _
  rw [newEdges_eq, V1_main_arg1]
  rfl

/-! ## On entry to the second kernel -/

/-- `main_arg0` is as launched when the second region is entered: neither host stretch writes it and it is none of
    the first region's arrays. -/
theorem V3_main_arg0 (c : Dev nD) : V3 m ρ c main_arg0 = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg0) := rfl
/-- `main_arg8` is as launched when the second region is entered: neither host stretch writes it and it is none of
    the first region's arrays. -/
theorem V3_main_arg8 (c : Dev nD) : V3 m ρ c main_arg8 = m ((c : Thread nD τ).loc main_arg8) :=
  calc W3 m ρ c (Proc.devRef .tc main_arg8)
    _ = W2 m ρ c (Proc.devRef .tc main_arg8) := StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg8) := rfl
/-- `main_arg10` is as launched when the second region is entered: neither host stretch writes it and it is none of
    the first region's arrays. -/
theorem V3_main_arg10 (c : Dev nD) : V3 m ρ c main_arg10 = m ((c : Thread nD τ).loc main_arg10) :=
  calc W3 m ρ c (Proc.devRef .tc main_arg10)
    _ = W2 m ρ c (Proc.devRef .tc main_arg10) := StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg10) := rfl

/-- The first bias of the node perceptron, recast by the first stretch and untouched since, read along its row. -/
theorem V3_main_v16 (c : Dev nD) :
    (fun k : Fin 256 => V3 m ρ c main_v16 (ix2 (0 : Fin 1) k)) = vec (m ((c : Thread nD τ).loc main_arg9)) := funext fun k => by
  have h : W3 m ρ c (Proc.devRef .tc main_v16) = W1 m ρ c (Proc.devRef .tc main_v16) :=
    (StableHlo.after_of_forall_not_mem (b := Proc.devRef .tc main_v16) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_of_ne m ρ c main_v16 (by decide))
  show W3 m ρ c (Proc.devRef .tc main_v16) (ix2 (0 : Fin 1) k) = _
  rw [h]
  show StableHlo.after hostOps0 (W0 m ρ c) (Proc.devRef .tc main_v16) (ix2 (0 : Fin 1) k) = _
  after_results
  exact shapeCast_a_1a_apply (m ((c : Thread nD τ).loc main_arg9)) shapeCasts_S256_S1x256 (0 : Fin 1) k

/-- The second bias of the node perceptron, likewise. -/
theorem V3_main_v17 (c : Dev nD) :
    (fun k : Fin 128 => V3 m ρ c main_v17 (ix2 (0 : Fin 1) k)) = vec (m ((c : Thread nD τ).loc main_arg11)) := funext fun k => by
  have h : W3 m ρ c (Proc.devRef .tc main_v17) = W1 m ρ c (Proc.devRef .tc main_v17) :=
    (StableHlo.after_of_forall_not_mem (b := Proc.devRef .tc main_v17) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_of_ne m ρ c main_v17 (by decide))
  show W3 m ρ c (Proc.devRef .tc main_v17) (ix2 (0 : Fin 1) k) = _
  rw [h]
  show StableHlo.after hostOps0 (W0 m ρ c) (Proc.devRef .tc main_v17) (ix2 (0 : Fin 1) k) = _
  after_results
  exact shapeCast_a_1a_apply (m ((c : Thread nD τ).loc main_arg11)) shapeCasts_S128_S1x128 (0 : Fin 1) k

/-- The messages summed into the nodes: the second stretch's scatter-add of the first kernel's new edges at the
    receivers' indices into zeros, which is the reference's own scatter-add of its new edges. -/
theorem V3_main_v21 (c : Dev nD) :
    V3 m ρ c main_v21 = Cert.ReferenceIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps1 (W2 m ρ c) (Proc.devRef .tc main_v21) = _
  after_results
  rw [W2_main_v18_0, W2_main_arg3]
  rfl

/-! ## The new nodes -/

/-- THE NEW NODES: the second kernel's output array is the reference's first result as a function of the launch
    arrays. -/
theorem nodes_out (c : Dev nD) :
    W4 m ρ c (Proc.devRef .tc main_v22) = Cert.ReferenceIdeal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [(W4_arr m ρ c 6).trans (NodeArr.arr6 (V3 m ρ) NodeBody.pay_node c)]
  funext i
  obtain ⟨p, j, rfl⟩ : ∃ (p : Fin 50000) (j : Fin 128), i = ix2 p j := ⟨i 0, i 1, eq_ix2 i⟩
  refine Eq.trans ?_ (RefValue.nodes_out _ _ _ _ _ _ _ _ _ _ _ _ p j).symm
  unfold NodeArr.nodesOut
  show NodeArr.asE (V3 m ρ c main_arg0) (ix2 p j) + mlpRow (cat2 (row (V3 m ρ c main_arg0) p) (row (V3 m ρ c main_v21) p)) (mat (V3 m ρ c main_arg8))
      (fun k : Fin 256 => V3 m ρ c main_v16 (ix2 (0 : Fin 1) k)) (mat (V3 m ρ c main_arg10)) (fun k : Fin 128 => V3 m ρ c main_v17 (ix2 (0 : Fin 1) k)) j = _
  rw [V3_main_v21, V3_main_arg0, V3_main_arg8, V3_main_arg10, V3_main_v16, V3_main_v17]

end Cert.MsgPass.KValue

end
-- ==== Proof.lean ====
/-
  A message-passing layer of a graph network: the kernel program against its plain reference, on the extended reals.

  Both programs take the nodes' features (50000 × 128), the edges' features (640000 × 128), each edge's sender and
  receiver, and the weights and biases of two two-layer perceptrons with the tanh form of GELU between the layers.
  They gather the senders' and the receivers' rows, apply the edge perceptron to each edge's three rows side by side
  (the new edges), add each new edge into its receiver's row (the messages), apply the node perceptron to each
  node's row beside its messages, and return the nodes plus their perceptron output and the edges plus their new
  edges.

  The reference does this on whole arrays. The kernel program does the gathers and the scatter-add with the same
  host operations on the same operands, and each perceptron in a kernel that walks the rows in blocks (160 blocks of
  4000 edges, 25 blocks of 2000 nodes), with its matrix products taken in a narrower float format. On the extended
  reals a change of format is the identity and a matrix product is the plain sum over the contracted axis, so at every
  entry both programs compute the same perceptron row of the same input rows; the blocks tile the rows, so each
  output array is that one function of the arrays its kernel finds. The only difference in spelling is the cube in
  GELU, `h · (h · h)` against `(h · h) · h`: the product of extended reals commutes, at the infinities too, so no
  finiteness of the inputs is used. The shared gathers and the scatter-add are never opened: the kernel program's are
  identified with the reference's own stages.

  The three frames are the generated ones (the reference's is its generated run with the results dropped); the
  idealization rewrote no operation, so it preserves trivially.
-/
import proofs.«149776_j16320875725329_1_alg».proof.Defs
import proofs.«149776_j16320875725329_1_alg».proof.Proof.Gen.Kernel
import proofs.«149776_j16320875725329_1_alg».proof.Proof.Gen.Kernel.Skeleton
import proofs.«149776_j16320875725329_1_alg».proof.Proof.Gen.Kernel.Launch
import proofs.«149776_j16320875725329_1_alg».proof.Proof.Gen.Kernel.Points
import proofs.«149776_j16320875725329_1_alg».proof.Proof.Gen.Kernel.Frame
import proofs.«149776_j16320875725329_1_alg».proof.Proof.Gen.KernelIdeal
import proofs.«149776_j16320875725329_1_alg».proof.Proof.Gen.KernelIdeal.Skeleton
import proofs.«149776_j16320875725329_1_alg».proof.Proof.Gen.KernelIdeal.Launch
import proofs.«149776_j16320875725329_1_alg».proof.Proof.Gen.KernelIdeal.Points
import proofs.«149776_j16320875725329_1_alg».proof.Proof.Gen.KernelIdeal.Frame
import proofs.«149776_j16320875725329_1_alg».proof.Proof.Gen.ReferenceIdeal
import proofs.«149776_j16320875725329_1_alg».proof.Proof.Gen.Pre_finite_inputs
import proofs.«149776_j16320875725329_1_alg».proof.Proof.Gen.ReferenceIdeal.Run
import proofs.«149776_j16320875725329_1_alg».proof.Proof.Gen.ReferenceIdeal.Read
import proofs.«149776_j16320875725329_1_alg».proof.Proof.KernelIdealRun
import proofs.«149776_j16320875725329_1_alg».proof.Proof.KValue
import Idealize.ShloMosaic.Adequacy
import Idealize.ShloMosaic.Init

noncomputable section

namespace Cert.Proof

open Idealize.ShloMosaic Idealize.SL.Sem

/-- The two results of the two programs, from memories agreeing on the arguments, are equal as extended reals: the
    kernel program's run ends with its result arrays at its last boundary's contents, the reference's run with its
    composed terms of the arguments, and those are the same functions of the launch arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W4 m ρ c (Proc.devRef .tc Cert.KernelIdeal.main_v22),
    fun c => Cert.KernelIdeal.Gen.W4 m ρ c (Proc.devRef .tc Cert.KernelIdeal.main_v18_1),
    Cert.KernelIdeal.RunNamed.run_named m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11⟩ := hagree c
    rw [Cert.ReferenceIdeal.Read.val_main_v61_eq, h0, h1, h2, h3, h4, h5, h6, h7, h8, h9, h10, h11]
    exact (Cert.MsgPass.KValue.nodes_out m ρ c).symm
  · obtain ⟨h0, h1, h2, h3, h4, h5, h6, h7, h8, h9, h10, h11⟩ := hagree c
    rw [Cert.ReferenceIdeal.Read.val_main_v62_eq, h0, h1, h2, h3, h4, h5, h6, h7]
    exact (Cert.MsgPass.KValue.edges_out m ρ c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (Cert.ReferenceIdeal.Value.run (F := Ideal) m ρ),
  trivial,
  algebraic⟩

end Cert.Proof

end
